-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S256x512 : Shape := ⟨2, ![256, 512]⟩
abbrev S512x512 : Shape := ⟨2, ![512, 512]⟩
abbrev S2048x4096 : Shape := ⟨2, ![2048, 4096]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S2048 .f32) (main_arg5 : FVec F S512x2048 .f32) (main_arg6 : FVec F S512 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S256x4096 .f32) (main_arg1 : FVec F S256x512 .f32) (main_arg2 : FVec F S512x512 .f32) (main_arg3 : FVec F S2048x4096 .f32) (main_arg4 : FVec F S2048 .f32) (main_arg5 : FVec F S512x2048 .f32) (main_arg6 : FVec F S512 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_v13 main_v16
-- ==== Kernel.lean ====
abbrev S256x4096 : Shape := ⟨2, ![256, 4096]⟩
abbrev S256x512 : Shape := ⟨2, ![256, 512]⟩
abbrev S512x512 : Shape := ⟨2, ![512, 512]⟩
abbrev S2048x4096 : Shape := ⟨2, ![2048, 4096]⟩
abbrev S2048 : Shape := ⟨1, ![2048]⟩
abbrev S512x2048 : Shape := ⟨2, ![512, 2048]⟩
abbrev S512 : Shape := ⟨1, ![512]⟩
abbrev S1x2048 : Shape := ⟨2, ![1, 2048]⟩
abbrev S1x512 : Shape := ⟨2, ![1, 512]⟩
abbrev S256x1 : Shape := ⟨2, ![256, 1]⟩
abbrev S256x1024 : Shape := ⟨2, ![256, 1024]⟩
abbrev S2048x1024 : Shape := ⟨2, ![2048, 1024]⟩
abbrev S256x2048 : Shape := ⟨2, ![256, 2048]⟩
abbrev S1024x2048 : Shape := ⟨2, ![1024, 2048]⟩
abbrev S2048x512 : Shape := ⟨2, ![2048, 512]⟩
abbrev S256 : Shape := ⟨1, ![256]⟩
abbrev S256x128 : Shape := ⟨2, ![256, 128]⟩
abbrev S128x128 : Shape := ⟨2, ![128, 128]⟩
abbrev S1x128x128 : Shape := ⟨3, ![1, 128, 128]⟩
abbrev S256x1x128 : Shape := ⟨3, ![256, 1, 128]⟩
abbrev S256x128x128 : Shape := ⟨3, ![256, 128, 128]⟩
abbrev S256x513 : Shape := ⟨2, ![256, 513]⟩

abbrev nBuf : Space → Nat
  | .hbm => 13
  | .vmem => 17
  | .smem => 0
  | _ => 0

abbrev bufTy : (tb : Table) → Fin (tcTables nBuf tb) → BufTy
  | .hbm, ⟨0, _⟩ => ⟨S256x4096, .f32⟩
  | .hbm, ⟨1, _⟩ => ⟨S256x512, .f32⟩
  | .hbm, ⟨2, _⟩ => ⟨S512x512, .f32⟩
  | .hbm, ⟨3, _⟩ => ⟨S2048x4096, .f32⟩
  | .hbm, ⟨4, _⟩ => ⟨S2048, .f32⟩
  | .hbm, ⟨5, _⟩ => ⟨S512x2048, .f32⟩
  | .hbm, ⟨6, _⟩ => ⟨S512, .f32⟩
  | .hbm, ⟨7, _⟩ => ⟨S1x2048, .f32⟩
  | .hbm, ⟨8, _⟩ => ⟨S1x512, .f32⟩
  | .hbm, ⟨9, _⟩ => ⟨S256x512, .f32⟩
  | .hbm, ⟨10, _⟩ => ⟨S256x1, .f32⟩
  | .hbm, ⟨11, _⟩ => ⟨S256x512, .f32⟩
  | .hbm, ⟨12, _⟩ => ⟨S256x513, .f32⟩
  | .local _ .vmem, ⟨0, _⟩ => ⟨S256x1024, .f32⟩
  | .local _ .vmem, ⟨1, _⟩ => ⟨S256x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S512x2048, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S256x1, .f32⟩
  | .local _ .vmem, ⟨10, _⟩ => ⟨S256x2048, .f32⟩
  | .local _ .vmem, ⟨11, _⟩ => ⟨S256x128, .f32⟩
  | .local _ .vmem, ⟨12, _⟩ => ⟨S256x128, .f32⟩
  | .local _ .vmem, ⟨13, _⟩ => ⟨S128x128, .f32⟩
  | .local _ .vmem, ⟨14, _⟩ => ⟨S128x128, .f32⟩
  | .local _ .vmem, ⟨15, _⟩ => ⟨S256x128, .f32⟩
  | .local _ .vmem, ⟨16, _⟩ => ⟨S256x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_9 : BitVec 32 := 0#32
  let v22 : BitVec 1 := Scalar.cmpi .ne v21 c0_i32_9
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

class Facts₀ : Prop where
  shapeCasts_S2048_S1x2048 : S2048.ShapeCasts S1x2048
  shapeCasts_S512_S1x512 : S512.ShapeCasts S1x512
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  transposes_S2048x1024_p1_0_S1024x2048 : S2048x1024.Transposes [1, 0] S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S1x128x128 : S128x128.ShapeCasts S1x128x128
  shapeCasts_S256x128_S256x1x128 : S256x128.ShapeCasts S256x1x128
  broadcasts_S1x128x128_S256x128x128 : S1x128x128.Broadcasts S256x128x128
  broadcasts_S256x1x128_S256x128x128 : S256x1x128.Broadcasts S256x128x128
  reduces_S256x128x128_S256x128 : S256x128x128.Reduces [2] S256x128
  concatenates_S256x1_S256x512_S256x513_d1 : Shape.Concatenates [S256x1, S256x512] S256x513 1
  dot_S256x1024_S1024x2048_S256x2048_1_0_0_1_n_n_wf : DotDims.WF S256x1024 S1024x2048 S256x2048 [1] [0] [0] [1] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x4096.size a
  hwx0_0 : ∀ i : grid0.Coords, EltTy.bits .f32 = 32 ∨ (Rect.block (s := S256x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x4096.size a
  hwx0_1 : ∀ i : grid0.Coords, EltTy.bits .f32 = 32 ∨ (Rect.block (s := S2048x4096) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S256x512.size a
  hwx1_0 : ∀ i : grid1.Coords, EltTy.bits .f32 = 32 ∨ (Rect.block (s := S256x512) S256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x512.size a
  hwx1_1 : ∀ i : grid1.Coords, EltTy.bits .f32 = 32 ∨ (Rect.block (s := S512x512) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x512.size a
  hwx1_2 : ∀ i : grid1.Coords, EltTy.bits .f32 = 32 ∨ (Rect.block (s := S256x512) S256x128.size (cc1_transform_2 i) (hinb1_2 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S256x512.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S256x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v2_0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S256x4096 : Shape := ⟨2, ![256, 4096]⟩
abbrev S256x512 : Shape := ⟨2, ![256, 512]⟩
abbrev S512x512 : Shape := ⟨2, ![512, 512]⟩
abbrev S2048x4096 : Shape := ⟨2, ![2048, 4096]⟩
abbrev S2048 : Shape := ⟨1, ![2048]⟩
abbrev S512x2048 : Shape := ⟨2, ![512, 2048]⟩
abbrev S512 : Shape := ⟨1, ![512]⟩
abbrev S4096x2048 : Shape := ⟨2, ![4096, 2048]⟩
abbrev S256x2048 : Shape := ⟨2, ![256, 2048]⟩
abbrev S1x2048 : Shape := ⟨2, ![1, 2048]⟩
abbrev S2048x512 : Shape := ⟨2, ![2048, 512]⟩
abbrev S1x512 : Shape := ⟨2, ![1, 512]⟩
abbrev S_ : Shape := ⟨0, ![]⟩
abbrev S256 : Shape := ⟨1, ![256]⟩
abbrev S1x512x512 : Shape := ⟨3, ![1, 512, 512]⟩
abbrev S256x1x512 : Shape := ⟨3, ![256, 1, 512]⟩
abbrev S256x512x512 : Shape := ⟨3, ![256, 512, 512]⟩
abbrev S256x1 : Shape := ⟨2, ![256, 1]⟩
abbrev S256x513 : Shape := ⟨2, ![256, 513]⟩

abbrev nBuf : Space → Nat
  | .hbm => 41
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x512, .f32⟩
  | .hbm, ⟨2, _⟩ => ⟨S512x512, .f32⟩
  | .hbm, ⟨3, _⟩ => ⟨S2048x4096, .f32⟩
  | .hbm, ⟨4, _⟩ => ⟨S2048, .f32⟩
  | .hbm, ⟨5, _⟩ => ⟨S512x2048, .f32⟩
  | .hbm, ⟨6, _⟩ => ⟨S512, .f32⟩
  | .hbm, ⟨7, _⟩ => ⟨S4096x2048, .f32⟩
  | .hbm, ⟨8, _⟩ => ⟨S256x2048, .f32⟩
  | .hbm, ⟨9, _⟩ => ⟨S1x2048, .f32⟩
  | .hbm, ⟨10, _⟩ => ⟨S256x2048, .f32⟩
  | .hbm, ⟨11, _⟩ => ⟨S256x2048, .f32⟩
  | .hbm, ⟨12, _⟩ => ⟨S2048x512, .f32⟩
  | .hbm, ⟨13, _⟩ => ⟨S256x512, .f32⟩
  | .hbm, ⟨14, _⟩ => ⟨S1x512, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S1x512x512, .f32⟩
  | .hbm, ⟨27, _⟩ => ⟨S256x1x512, .f32⟩
  | .hbm, ⟨28, _⟩ => ⟨S256x512x512, .f32⟩
  | .hbm, ⟨29, _⟩ => ⟨S256x512x512, .f32⟩
  | .hbm, ⟨30, _⟩ => ⟨S256x512x512, .f32⟩
  | .hbm, ⟨31, _⟩ => ⟨S_, .f32⟩
  | .hbm, ⟨32, _⟩ => ⟨S256x512x512, .f32⟩
  | .hbm, ⟨33, _⟩ => ⟨S256x512x512, .f32⟩
  | .hbm, ⟨34, _⟩ => ⟨S256x512x512, .f32⟩
  | .hbm, ⟨35, _⟩ => ⟨S_, .f32⟩
  | .hbm, ⟨36, _⟩ => ⟨S256x512, .f32⟩
  | .hbm, ⟨37, _⟩ => ⟨S256x512, .f32⟩
  | .hbm, ⟨38, _⟩ => ⟨S256x512, .f32⟩
  | .hbm, ⟨39, _⟩ => ⟨S256x1, .f32⟩
  | .hbm, ⟨40, _⟩ => ⟨S256x513, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  transposes_S2048x4096_S4096x2048_1_0 : S2048x4096.Transposes [1, 0] S4096x2048
  bcast_S2048_S1x2048_1 : S2048.BroadcastsInDim S1x2048 (![1] : Fin 1 → Fin S1x2048.rank)
  bcast_S1x2048_S256x2048_0_1 : S1x2048.BroadcastsInDim S256x2048 (![0, 1] : Fin 2 → Fin S256x2048.rank)
  transposes_S512x2048_S2048x512_1_0 : S512x2048.Transposes [1, 0] S2048x512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S_S256x512 : S_.BroadcastsInDim S256x512 (![] : Fin 0 → Fin S256x512.rank)
  reducesTo_S256x512_S256_d1 : S256x512.ReducesTo [1] S256
  h_S_ : 0 < S_.numel
  bcast_S512x512_S1x512x512_1_2 : S512x512.BroadcastsInDim S1x512x512 (![1, 2] : Fin 2 → Fin S1x512x512.rank)
  bcast_S256x512_S256x1x512_0_2 : S256x512.BroadcastsInDim S256x1x512 (![0, 2] : Fin 2 → Fin S256x1x512.rank)
  bcast_S1x512x512_S256x512x512_0_1_2 : S1x512x512.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  bcast_S_S256x512x512 : S_.BroadcastsInDim S256x512x512 (![] : Fin 0 → Fin S256x512x512.rank)
  reducesTo_S256x512x512_S256x512_d2 : S256x512x512.ReducesTo [2] S256x512
  bcast_S256_S256x1_0 : S256.BroadcastsInDim S256x1 (![0] : Fin 1 → Fin S256x1.rank)
  concatenates_S256x1_S256x512_S256x513_d1 : Shape.Concatenates [S256x1, S256x512] S256x513 1
  dot_S256x4096_S4096x2048_S256x2048_1_0_0_1_n_n_wf : DotDims.WF S256x4096 S4096x2048 S256x2048 [1] [0] [0] [1] [] []
  dot_S256x2048_S2048x512_S256x512_1_0_0_1_n_n_wf : DotDims.WF S256x2048 S2048x512 S256x512 [1] [0] [0] [1] [] []

variable [Facts₀]

def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

class Facts : Prop extends Facts₀ where

variable [Facts]
-- ==== Proof.Bits.Shared.lean ====
/-
  What the two kernel regions' runs and proof data are stated over, at any float instance.
  Region 0 walks the contraction axis of the first matrix product in four blocks (grid point k), keeping the
  partial products in a scratch accumulator that point 0 clears; at point 3 it adds the first bias, forms the
  second product and its bias (the embedding), and from it the positive scores. Region 1 walks a 4 x 4 grid
  (n, d), t = 4 n + d: along d it accumulates, in a scratch that d = 0 clears, the lane sums of the squared
  positive parts; at d = 3 it writes the negative scores of column block n.
  Here: each window's block at a point read off the array the region is entered with (a parameter V), every input
  window found at its block at every point, the two branch conditions of each body in closed form over the
  grid, where the output windows are idle and where they are written back, the staging and scratch memrefs as the
  pipeline passes them, and the region invariant's scoped rest split at the kernel's own scratch.
-/
import proofs.«118560_j28226525069938_1_alg».proof.Proof.Gen.Kernel.Launch
import proofs.«118560_j28226525069938_1_alg».proof.Proof.Gen.Kernel.Skeleton
import proofs.«118560_j28226525069938_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Region 0: window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: where it is
    not fetched its block index has not moved. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0: the branch conditions over the grid -/

/-- "this is the first block of the contraction axis": the body clears its accumulator. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "this is the last block": the body finishes the embedding and the positive scores. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last block output 6 is idle and not written back; at the last block it is live. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Away from the last block output 7 is idle and not written back; at the last block it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## Region 0: the memrefs the body is called with -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
/-- The accumulator of the first product: a scoped buffer of the kernel's own. -/
abbrev scM0 : Memref sig .tc .vmem S256x2048 .f32 := Memref.whole cc0_scratch0
abbrev VS0 : View sig .tc .vmem S256x2048 .f32 := scM0.view
/-- One staging buffer of each output window, through which its contents are stated. -/
abbrev VO0_6 : View sig .tc .vmem S256x512 .f32 := (Memref.whole cc0_stg6_0 : Memref sig .tc .vmem S256x512 .f32).view
abbrev VO0_7 : View sig .tc .vmem S256x1 .f32 := (Memref.whole cc0_stg7_0 : Memref sig .tc .vmem S256x1 .f32).view

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The other scoped buffers of the core, unopened. -/
abbrev rest0 (c : Dev nD) : sProp 𝕄 := Pipeline.scopedRestBut (Ix := Unit) (Name := ℕ) (U := UR sig nD τ) (Lvl := ℕ) (Val := Elt F) spec0 c [cc0_scratch0]

/-- What the region hands the body besides the windows: the accumulator at some contents, the other scoped buffers
    unopened, the generator register at some state. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; rfl

/-! ## Region 1: the branch conditions over the grid -/

/-- "this is the first lane block of the embedding axis": the body clears its accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "this is the last lane block": the body writes the negative scores of its column block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## Region 1: the memrefs the body is called with -/
abbrev ms1_0 (t : Fin cfg1.N) : Memref sig .tc .vmem S256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
/-- The accumulator of the lane sums: a scoped buffer of the kernel's own. -/
abbrev scM1 : Memref sig .tc .vmem S256x128 .f32 := Memref.whole cc1_scratch0
abbrev VS1 : View sig .tc .vmem S256x128 .f32 := scM1.view
abbrev VO1_2 : View sig .tc .vmem S256x128 .f32 := (Memref.whole cc1_stg2_0 : Memref sig .tc .vmem S256x128 .f32).view

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

abbrev rest1 (c : Dev nD) : sProp 𝕄 := Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; rfl

end Cert.Kernel.Fr

end
-- ==== Proof.Bits.Run0A.lean ====
/-
  Region 0, first block of the contraction axis (point 0): the accumulator is cleared, then receives this block's partial product.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Bits.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) :
    { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg9 fullShare d)
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Fr

end
-- ==== Proof.Bits.Run0B.lean ====
/-
  Region 0, an inner block of the contraction axis (points 1, 2): this block's partial product is added to what the point before left in the accumulator.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Bits.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) :
    { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg9 fullShare xs0
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Fr

end
-- ==== Proof.Bits.Run0C.lean ====
/-
  Region 0, last block of the contraction axis (point 3): the last partial product is added, then the first bias, the second product and its bias give the embedding, and the positive scores follow from it.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Bits.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) :
    Σ' (L7 : List (View.Piece (Elt F) S256x512 .f32)), Σ' (L8 : List (View.Piece (Elt F) S256x1 .f32)), { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%do0, %fo0, -, HO0⟩, ⟨%do1, %fo1, -, HO1⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HO0]; · iexists _; iexact HO0
    isplitl [HO1]; · iexists _; iexact HO1
    iexists _; iexact HS0

end Cert.Kernel.Fr

end
-- ==== Proof.Bits.Region0Defs.lean ====
/-
  Region 0: what its buffers hold point by point, and the pipeline's proof data, at any float instance and at a
  parameter V (the arrays as the region is entered).
  Points 0..3 are the four blocks of the first product's contraction axis: case A at point 0, case B at points 1 and 2, case C at point 3.
-/
import proofs.«118560_j28226525069938_1_alg».proof.Proof.Bits.Run0A
import proofs.«118560_j28226525069938_1_alg».proof.Proof.Bits.Run0B
import proofs.«118560_j28226525069938_1_alg».proof.Proof.Bits.Run0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A: what the body leaves in the accumulator (its pieces read back), and that they cover it. -/
theorem scover0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) (y : S256x2048.Idx) :
    ∃ pc ∈ (kernelRun0_A (F := F) c i arg1 harg1 arg2 harg2 arg3 harg3 arg4 harg4 arg5 harg5 arg6 harg6 arg7 harg7 arg8 harg8 arg9 harg9 hc0 hc1 x0 x1).1, y ∈ pc.1.set :=
  View.cover_of_tiledL (kernelRun0_A (F := F) c i arg1 harg1 arg2 harg2 arg3 harg3 arg4 harg4 arg5 harg5 arg6 harg6 arg7 harg7 arg8 harg8 arg9 harg9 hc0 hc1 x0 x1).1 S256x2048.size (by sl_kernel_rfl) y
def sout0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) : Vec F S256x2048 .f32 :=
  VS0.read (Elt F) (VS0.writes (Elt F) VS0.junk (kernelRun0_A (F := F) c i arg1 harg1 arg2 harg2 arg3 harg3 arg4 harg4 arg5 harg5 arg6 harg6 arg7 harg7 arg8 harg8 arg9 harg9 hc0 hc1 x0 x1).1)

/-- Case B: what the body leaves in the accumulator (its pieces read back), and that they cover it. -/
theorem scover0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) (y : S256x2048.Idx) :
    ∃ pc ∈ (kernelRun0_B (F := F) c i arg1 harg1 arg2 harg2 arg3 harg3 arg4 harg4 arg5 harg5 arg6 harg6 arg7 harg7 arg8 harg8 arg9 harg9 hc0 hc1 x0 x1 xs0).1, y ∈ pc.1.set :=
  View.cover_of_tiledL (kernelRun0_B (F := F) c i arg1 harg1 arg2 harg2 arg3 harg3 arg4 harg4 arg5 harg5 arg6 harg6 arg7 harg7 arg8 harg8 arg9 harg9 hc0 hc1 x0 x1 xs0).1 S256x2048.size (by sl_kernel_rfl) y
def sout0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) : Vec F S256x2048 .f32 :=
  VS0.read (Elt F) (VS0.writes (Elt F) VS0.junk (kernelRun0_B (F := F) c i arg1 harg1 arg2 harg2 arg3 harg3 arg4 harg4 arg5 harg5 arg6 harg6 arg7 harg7 arg8 harg8 arg9 harg9 hc0 hc1 x0 x1 xs0).1)

/-- Case C: what the body leaves in the accumulator (its pieces read back), and that they cover it. -/
theorem scover0_C (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) (y : S256x2048.Idx) :
    ∃ pc ∈ (kernelRun0_C (F := F) c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_C (F := F) c i arg1 harg1 arg2 harg2 arg3 harg3 arg4 harg4 arg5 harg5 arg6 harg6 arg7 harg7 arg8 harg8 arg9 harg9 hc0 hc1 x0 x1 x2 x3 x4 x5 xs0).2.2.1 S256x2048.size (by sl_kernel_rfl) y
def sout0_C (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) : Vec F S256x2048 .f32 :=
  VS0.read (Elt F) (VS0.writes (Elt F) VS0.junk (kernelRun0_C (F := F) c i arg1 harg1 arg2 harg2 arg3 harg3 arg4 harg4 arg5 harg5 arg6 harg6 arg7 harg7 arg8 harg8 arg9 harg9 hc0 hc1 x0 x1 x2 x3 x4 x5 xs0).2.2.1)
/-- Case C: what the body leaves in output window 6's buffer, and that its pieces cover it. -/
theorem cover0_C_6 (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) (y : S256x512.Idx) :
    ∃ pc ∈ (kernelRun0_C (F := F) c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C (F := F) c i arg1 harg1 arg2 harg2 arg3 harg3 arg4 harg4 arg5 harg5 arg6 harg6 arg7 harg7 arg8 harg8 arg9 harg9 hc0 hc1 x0 x1 x2 x3 x4 x5 xs0).1 S256x512.size (by sl_kernel_rfl) y
def out0_C_6 (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) : Vec F S256x512 .f32 :=
  VO0_6.read (Elt F) (VO0_6.writes (Elt F) VO0_6.junk (kernelRun0_C (F := F) c i arg1 harg1 arg2 harg2 arg3 harg3 arg4 harg4 arg5 harg5 arg6 harg6 arg7 harg7 arg8 harg8 arg9 harg9 hc0 hc1 x0 x1 x2 x3 x4 x5 xs0).1)
/-- Case C: what the body leaves in output window 7's buffer, and that its pieces cover it. -/
theorem cover0_C_7 (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) (y : S256x1.Idx) :
    ∃ pc ∈ (kernelRun0_C (F := F) c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C (F := F) c i arg1 harg1 arg2 harg2 arg3 harg3 arg4 harg4 arg5 harg5 arg6 harg6 arg7 harg7 arg8 harg8 arg9 harg9 hc0 hc1 x0 x1 x2 x3 x4 x5 xs0).2.1 S256x1.size (by sl_kernel_rfl) y
def out0_C_7 (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) : Vec F S256x1 .f32 :=
  VO0_7.read (Elt F) (VO0_7.writes (Elt F) VO0_7.junk (kernelRun0_C (F := F) c i arg1 harg1 arg2 harg2 arg3 harg3 arg4 harg4 arg5 harg5 arg6 harg6 arg7 harg7 arg8 harg8 arg9 harg9 hc0 hc1 x0 x1 x2 x3 x4 x5 xs0).2.1)

section AtV
variable (V : (c : Dev nD) → (b : Ref sig .tc) → Buf (Elt F) ((c : Thread nD τ).loc b))

/-! ## What the buffers hold after each point -/

/-- After the body at position n: output window 6's staging buffer, output window 7's staging buffer, then the accumulator. At a point where an
    output is idle its component is a placeholder nothing reads. The case is the one the closed forms select; cases B
    and C start from what the point before left in the accumulator. -/
def outsAt0 (c : Dev nD) : (n : ℕ) → n < cfg0.N → Vec F S256x512 .f32 × Vec F S256x1 .f32 × Vec F S256x2048 .f32
  | 0, hn => (VO0_6.read (Elt F) VO0_6.junk, VO0_7.read (Elt F) VO0_7.junk, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (VO0_6.read (Elt F) VO0_6.junk, VO0_7.read (Elt F) VO0_7.junk, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
      else
        (VO0_6.read (Elt F) VO0_6.junk, VO0_7.read (Elt F) VO0_7.junk, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 V c t.val t.isLt = (VO0_6.read (Elt F) VO0_6.junk, VO0_7.read (Elt F) VO0_7.junk, sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (VO0_6.read (Elt F) VO0_6.junk, VO0_7.read (Elt F) VO0_7.junk, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before the first point: the accumulator at anything. Afterwards: at what the point before left in it. Beside it
    the other scoped buffers unopened and the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ rest0 c) ∗ (∃ r, prngReg c r)) := by
  cases n with
  | zero => exact absurd rfl hz
  | succ n => rfl

/-! ## The proof data -/

/-- The arrays as the region finds them; after the body at point t each input's buffer at its block, each output's at
    what the point leaves (outsAt0); the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end AtV

end Cert.Kernel.Fr

end
-- ==== Proof.Bits.Region0Body.lean ====
/-
  Region 0: the body obligation at every grid point, and the invariant at the region's two ends.
-/
import proofs.«118560_j28226525069938_1_alg».proof.Proof.Bits.Region0Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-! ## The body obligation, at a generic point -/

/-- What the body is called with at point t: the invariant, nothing owed, and every window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. Every input's buffer holds its block; the closed forms of the two conditions say which
    case the point is in; that case's run applies to the buffers it touches, the others riding along untouched. The
    invariant hands over the accumulator (at anything before the first point, at what the point before left
    afterwards) and takes it back at this point's contents, its pieces covering it. At the last block the two output
    buffers come back at their pieces read back, which cover them; elsewhere they are idle and handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 4 := lt_of_lt_of_eq t.isLt (show cfg0.N = 4 from N_0)
  by_cases h0 : t.val % 4 = 0
  · by_cases h1 : t.val % 4 = 3
    · exfalso; omega
    · -- first block: the accumulator is cleared, so whatever it held is given up
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, H6, H7⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t)).2 Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t))
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, H6, H7⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t)).2 Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t))
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · by_cases h1 : t.val % 4 = 3
    · -- last block: the accumulator is updated, then the two outputs are stored whole
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold out0_C_6 out0_C_7 sout0_C; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2)
        unfold owns; iexists _; isplitr
        swap; · iexact H7
        ipureintro; exact View.read_writes_of_cover _ _ _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2)
    · -- a middle block: the accumulator is updated
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold sout0_B; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, H6, H7⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2).2 Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over: the accumulator's named
    contents are forgotten, the other scoped buffers and the generator register pass through. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

/-- After the last point the invariant gives it back: the accumulator's named contents are forgotten. -/
theorem hout0 (c : Dev nD) : (dat0 V c).Φ (Fin.last cfg0.N) ⊢ (Pipeline.ΦA spec0 c : sProp 𝕄) :=
  Phi_out0 V c _ (by rw [Fin.val_last]; have : cfg0.N = 4 := N_0; omega)

end AtV

end Cert.Kernel.Fr

end
-- ==== Proof.Bits.Run1A.lean ====
/-
  Region 1, first lane block (d = 0): the accumulator is cleared, then receives this block's lane sums of squared positive parts.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Bits.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : cond1_0 i) (hc1 : ¬cond1_1 i)
    (x0 : Vec F S256x128 .f32) (x1 : Vec F S128x128 .f32) :
    { LS0 : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg5 fullShare d)
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨?_, fun E K => ?run⟩
  case run =>
    simp only [cc1__score_kernel_eq_skeleton]; unfold cc1__score_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.Bits.Run1B.lean ====
/-
  Region 1, an inner lane block (d = 1, 2): this block's lane sums are added to what the point before left.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Bits.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : ¬cond1_1 i)
    (x0 : Vec F S256x128 .f32) (x1 : Vec F S128x128 .f32) (xs0 : Vec F S256x128 .f32) :
    { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg5 fullShare xs0
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨?_, fun E K => ?run⟩
  case run =>
    simp only [cc1__score_kernel_eq_skeleton]; unfold cc1__score_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.Bits.Run1C.lean ====
/-
  Region 1, last lane block (d = 3): the last lane sums are added and the negative scores of the column block are written.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Bits.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) :
    Σ' (L4 : List (View.Piece (Elt F) S256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨?_, ?_, fun E K => ?run⟩
  case run =>
    simp only [cc1__score_kernel_eq_skeleton]; unfold cc1__score_kernel_skel
    unfold owns
    iintro ⟨⟨%f0, %hf0, H0⟩, ⟨%f1, %hf1, H1⟩, ⟨%do0, %fo0, -, HO0⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO0]; · iexists _; iexact HO0
    iexists _; iexact HS0

end Cert.Kernel.Fr

end
-- ==== Proof.Bits.Region1Defs.lean ====
/-
  Region 1: what its buffers hold point by point, and the pipeline's proof data, at any float instance and at a
  parameter V (the arrays as the region is entered).
  Point t = 4 n + d: case A where d = 0, case B where d = 1 or 2, case C where d = 3; the accumulator is cleared at every d = 0.
-/
import proofs.«118560_j28226525069938_1_alg».proof.Proof.Bits.Run1A
import proofs.«118560_j28226525069938_1_alg».proof.Proof.Bits.Run1B
import proofs.«118560_j28226525069938_1_alg».proof.Proof.Bits.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A: what the body leaves in the accumulator (its pieces read back), and that they cover it. -/
theorem scover1_A (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : cond1_0 i) (hc1 : ¬cond1_1 i)
    (x0 : Vec F S256x128 .f32) (x1 : Vec F S128x128 .f32) (y : S256x128.Idx) :
    ∃ pc ∈ (kernelRun1_A (F := F) c i arg2 harg2 arg3 harg3 arg4 harg4 arg5 harg5 hc0 hc1 x0 x1).1, y ∈ pc.1.set :=
  View.cover_of_tiledL (kernelRun1_A (F := F) c i arg2 harg2 arg3 harg3 arg4 harg4 arg5 harg5 hc0 hc1 x0 x1).1 S256x128.size (by sl_kernel_rfl) y
def sout1_A (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : cond1_0 i) (hc1 : ¬cond1_1 i)
    (x0 : Vec F S256x128 .f32) (x1 : Vec F S128x128 .f32) : Vec F S256x128 .f32 :=
  VS1.read (Elt F) (VS1.writes (Elt F) VS1.junk (kernelRun1_A (F := F) c i arg2 harg2 arg3 harg3 arg4 harg4 arg5 harg5 hc0 hc1 x0 x1).1)

/-- Case B: what the body leaves in the accumulator (its pieces read back), and that they cover it. -/
theorem scover1_B (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : ¬cond1_1 i)
    (x0 : Vec F S256x128 .f32) (x1 : Vec F S128x128 .f32) (xs0 : Vec F S256x128 .f32) (y : S256x128.Idx) :
    ∃ pc ∈ (kernelRun1_B (F := F) c i arg2 harg2 arg3 harg3 arg4 harg4 arg5 harg5 hc0 hc1 x0 x1 xs0).1, y ∈ pc.1.set :=
  View.cover_of_tiledL (kernelRun1_B (F := F) c i arg2 harg2 arg3 harg3 arg4 harg4 arg5 harg5 hc0 hc1 x0 x1 xs0).1 S256x128.size (by sl_kernel_rfl) y
def sout1_B (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : ¬cond1_1 i)
    (x0 : Vec F S256x128 .f32) (x1 : Vec F S128x128 .f32) (xs0 : Vec F S256x128 .f32) : Vec F S256x128 .f32 :=
  VS1.read (Elt F) (VS1.writes (Elt F) VS1.junk (kernelRun1_B (F := F) c i arg2 harg2 arg3 harg3 arg4 harg4 arg5 harg5 hc0 hc1 x0 x1 xs0).1)

/-- Case C: what the body leaves in the accumulator (its pieces read back), and that they cover it. -/
theorem scover1_C (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) (y : S256x128.Idx) :
    ∃ pc ∈ (kernelRun1_C (F := F) c i arg2 harg2 arg3 harg3 arg4 harg4 arg5 harg5 hc0 hc1 x0 x1 xs0).2.1, y ∈ pc.1.set :=
  View.cover_of_tiledL (kernelRun1_C (F := F) c i arg2 harg2 arg3 harg3 arg4 harg4 arg5 harg5 hc0 hc1 x0 x1 xs0).2.1 S256x128.size (by sl_kernel_rfl) y
def sout1_C (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) : Vec F S256x128 .f32 :=
  VS1.read (Elt F) (VS1.writes (Elt F) VS1.junk (kernelRun1_C (F := F) c i arg2 harg2 arg3 harg3 arg4 harg4 arg5 harg5 hc0 hc1 x0 x1 xs0).2.1)
/-- Case C: what the body leaves in output window 2's buffer, and that its pieces cover it. -/
theorem cover1_C_2 (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) (y : S256x128.Idx) :
    ∃ pc ∈ (kernelRun1_C (F := F) c i arg2 harg2 arg3 harg3 arg4 harg4 arg5 harg5 hc0 hc1 x0 x1 xs0).1, y ∈ pc.1.set :=
  View.cover_of_tiledL (kernelRun1_C (F := F) c i arg2 harg2 arg3 harg3 arg4 harg4 arg5 harg5 hc0 hc1 x0 x1 xs0).1 S256x128.size (by sl_kernel_rfl) y
def out1_C_2 (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) : Vec F S256x128 .f32 :=
  VO1_2.read (Elt F) (VO1_2.writes (Elt F) VO1_2.junk (kernelRun1_C (F := F) c i arg2 harg2 arg3 harg3 arg4 harg4 arg5 harg5 hc0 hc1 x0 x1 xs0).1)

section AtV
variable (V : (c : Dev nD) → (b : Ref sig .tc) → Buf (Elt F) ((c : Thread nD τ).loc b))

/-! ## What the buffers hold after each point -/

/-- After the body at position n: output window 2's staging buffer, then the accumulator. At a point where an
    output is idle its component is a placeholder nothing reads. The case is the one the closed forms select; cases B
    and C start from what the point before left in the accumulator. -/
def outsAt1 (c : Dev nD) : (n : ℕ) → n < cfg1.N → Vec F S256x128 .f32 × Vec F S256x128 .f32
  | 0, hn => (VO1_2.read (Elt F) VO1_2.junk, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (VO1_2.read (Elt F) VO1_2.junk, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (VO1_2.read (Elt F) VO1_2.junk, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (VO1_2.read (Elt F) VO1_2.junk, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (VO1_2.read (Elt F) VO1_2.junk, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before the first point: the accumulator at anything. Afterwards: at what the point before left in it. Beside it
    the other scoped buffers unopened and the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The proof data -/

/-- The arrays as the region finds them; after the body at point t each input's buffer at its block, each output's at
    what the point leaves (outsAt1); the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end AtV

end Cert.Kernel.Fr

end
-- ==== Proof.Bits.Region1Body.lean ====
/-
  Region 1: the body obligation at every grid point, and the invariant at the region's two ends.
-/
import proofs.«118560_j28226525069938_1_alg».proof.Proof.Bits.Region1Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-! ## The body obligation, at a generic point -/

/-- What the body is called with at point t: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The first lane block of a column block, at the region's very first point: the accumulator comes at anything
    (the launch's invariant), is cleared and filled; the output window is idle and rides along untouched. -/
theorem sound_body1_A0 (c : Dev nD) (t : Fin cfg1.N) (h0 : t.val % 4 = 0) (h1 : ¬t.val % 4 = 3) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [Dat.leavesExact_idle (dat1 V c) 2 t (idleAt1_2 t (fun h => h1 ((hcond1_1 t).mp h))) (noFlush1_2 t (fun h => h1 ((hcond1_1 t).mp h)))]
  rw [outsAt1_A V c t h0 h1]
  unfold sout1_A; (try dsimp only)
  rw [PhiS1_castSucc V c t, PhiS1_zero V c _ _ hz, PhiA1_eq]
  iintro ⟨⟨⟨HS0, Hrest⟩, Hg⟩, Ho, ⟨%d0, H0⟩, ⟨%d1, H1⟩, H2⟩
  iapply ((kernelRun1_A (F := F) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2 Set.univ _)
  isplitl [H0]; · iexact H0
  isplitl [H1]; · iexact H1
  isplitl [HS0]; · iexact HS0
  iintro ⟨H0, H1, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover1_A c _ _ _ _ _ _ _ _ _ _ _ _ _)
      iexact Hrest
    iexact Hg
  isplitl [Ho]; · iexact Ho
  isplitl [H0]; · iexact H0
  isplitl [H1]; · iexact H1
  iexact H2

set_option maxHeartbeats 4800000 in
/-- The first lane block of a later column block: the accumulator comes at what the point before left, and is
    cleared all the same. -/
theorem sound_body1_A (c : Dev nD) (t : Fin cfg1.N) (h0 : t.val % 4 = 0) (h1 : ¬t.val % 4 = 3) (hz : ¬t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [Dat.leavesExact_idle (dat1 V c) 2 t (idleAt1_2 t (fun h => h1 ((hcond1_1 t).mp h))) (noFlush1_2 t (fun h => h1 ((hcond1_1 t).mp h)))]
  rw [outsAt1_A V c t h0 h1]
  unfold sout1_A; (try dsimp only)
  rw [PhiS1_castSucc V c t, PhiS1_pos V c _ _ hz]
  iintro ⟨⟨⟨HS0, Hrest⟩, Hg⟩, Ho, ⟨%d0, H0⟩, ⟨%d1, H1⟩, H2⟩
  iapply ((kernelRun1_A (F := F) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2 Set.univ _)
  isplitl [H0]; · iexact H0
  isplitl [H1]; · iexact H1
  isplitl [HS0]; · iexists _; iexact HS0
  iintro ⟨H0, H1, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover1_A c _ _ _ _ _ _ _ _ _ _ _ _ _)
      iexact Hrest
    iexact Hg
  isplitl [Ho]; · iexact Ho
  isplitl [H0]; · iexact H0
  isplitl [H1]; · iexact H1
  iexact H2

set_option maxHeartbeats 4800000 in
/-- A middle lane block: the accumulator comes at what the point before left and is added to; the output window is
    idle and rides along untouched. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  have hz : t.val ≠ 0 := fun h => h0 (by rw [h])
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [Dat.leavesExact_idle (dat1 V c) 2 t (idleAt1_2 t (fun h => h1 ((hcond1_1 t).mp h))) (noFlush1_2 t (fun h => h1 ((hcond1_1 t).mp h)))]
  rw [outsAt1_B V c t h0 h1]
  unfold sout1_B; (try dsimp only)
  rw [PhiS1_castSucc V c t, PhiS1_pos V c _ _ hz]
  iintro ⟨⟨⟨HS0, Hrest⟩, Hg⟩, Ho, ⟨%d0, H0⟩, ⟨%d1, H1⟩, H2⟩
  iapply ((kernelRun1_B (F := F) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2 Set.univ _)
  isplitl [H0]; · iexact H0
  isplitl [H1]; · iexact H1
  isplitl [HS0]; · iexact HS0
  iintro ⟨H0, H1, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover1_B c _ _ _ _ _ _ _ _ _ _ _ _ _ _)
      iexact Hrest
    iexact Hg
  isplitl [Ho]; · iexact Ho
  isplitl [H0]; · iexact H0
  isplitl [H1]; · iexact H1
  iexact H2

set_option maxHeartbeats 4800000 in
/-- The last lane block: the accumulator comes at what the point before left and is added to, and the output
    window's buffer, handed over at anything, is stored whole. -/
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  have hz : t.val ≠ 0 := fun h => h0 (by rw [h])
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t ((hcond1_1 t).mpr h1)], after1_2]
  rw [outsAt1_C V c t h0 h1]
  unfold out1_C_2 sout1_C; (try dsimp only)
  rw [PhiS1_castSucc V c t, PhiS1_pos V c _ _ hz]
  iintro ⟨⟨⟨HS0, Hrest⟩, Hg⟩, Ho, ⟨%d0, H0⟩, ⟨%d1, H1⟩, ⟨%d2, H2⟩⟩
  iapply ((kernelRun1_C (F := F) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover1_C c _ _ _ _ _ _ _ _ _ _ _ _ _ _)
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover1_C_2 c _ _ _ _ _ _ _ _ _ _ _ _ _ _)

/-- The body at any point: the closed forms of the two conditions say which case the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · by_cases h1 : t.val % 4 = 3
    · exfalso; omega
    · by_cases hz : t.val = 0
      · exact sound_body1_A0 V c t h0 h1 hz
      · exact sound_body1_A V c t h0 h1 hz
  · by_cases h1 : t.val % 4 = 3
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

/-- After the last point the invariant gives it back: the accumulator's named contents are forgotten. -/
theorem hout1 (c : Dev nD) : (dat1 V c).Φ (Fin.last cfg1.N) ⊢ (Pipeline.ΦA spec1 c : sProp 𝕄) :=
  Phi_out1 V c _ (by rw [Fin.val_last]; have : cfg1.N = 16 := N_1; omega)

end AtV

end Cert.Kernel.Fr

end
-- ==== Proof.Bits.Main.lean ====
/-
  The kernel program's run, at any float instance: @main is a stretch of two host reshapes (the biases as one-row
  matrices), region 0, region 1, and one host concatenation. The unscoped buffers' contents are followed from the
  launch through each item: a host stretch applies its operations; a region leaves each of its arrays at what its
  write-backs leave and every other buffer as it found it. Every weakly fair execution terminates without a fault,
  and in the final state every unscoped buffer holds the last boundary's contents. From that: the seven argument
  arrays end as launched (no host operation and no region writes one), and the result array is the concatenation
  of region 0's positive scores with region 1's negative scores.
-/
import proofs.«118560_j28226525069938_1_alg».proof.Proof.Bits.Region0Body
import proofs.«118560_j28226525069938_1_alg».proof.Proof.Bits.Region1Body
import proofs.«118560_j28226525069938_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main -/

/-- At launch. -/
abbrev B0 : Dev nD → Valuation τ sig (Elt F) := fun c b => m (c, b)
/-- After the two reshapes (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After region 0 (region 1's entry): its arrays at what the pipeline leaves, the rest as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After region 1. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)
/-- After the concatenation (the end). -/
abbrev B4 : Dev nD → Valuation τ sig (Elt F) := fun c => StableHlo.after hostOps2 (B3 m c)

/-! ## The arguments end as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg0) := B3_of_ne m c main_arg0 (by decide)
    _ = B1 m c (Proc.devRef .tc main_arg0) := (B2_arr m c 0).trans (((dat0 (E1 m) c).arrAt_in 0 rfl _).trans (A_eq0 (E1 m) c 0))
    _ = B0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem B4_main_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg1) := B3_of_ne m c main_arg1 (by decide)
    _ = B1 m c (Proc.devRef .tc main_arg1) := (B2_arr m c 5).trans (((dat0 (E1 m) c).arrAt_in 5 rfl _).trans (A_eq0 (E1 m) c 5))
    _ = B0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem B4_main_arg2 (c : Dev nD) : B4 m c (Proc.devRef .tc main_arg2) = m ((c : Thread nD τ).loc main_arg2) :=
  calc B4 m c (Proc.devRef .tc main_arg2)
    _ = B3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg2) := (B3_arr m c 1).trans (((dat1 (E2 m) c).arrAt_in 1 rfl _).trans (A_eq1 (E2 m) c 1))
    _ = B1 m c (Proc.devRef .tc main_arg2) := B2_of_ne m c main_arg2 (by decide)
    _ = B0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem B4_main_arg3 (c : Dev nD) : B4 m c (Proc.devRef .tc main_arg3) = m ((c : Thread nD τ).loc main_arg3) :=
  calc B4 m c (Proc.devRef .tc main_arg3)
    _ = B3 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg3) := B3_of_ne m c main_arg3 (by decide)
    _ = B1 m c (Proc.devRef .tc main_arg3) := (B2_arr m c 1).trans (((dat0 (E1 m) c).arrAt_in 1 rfl _).trans (A_eq0 (E1 m) c 1))
    _ = B0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem B4_main_arg4 (c : Dev nD) : B4 m c (Proc.devRef .tc main_arg4) = m ((c : Thread nD τ).loc main_arg4) :=
  calc B4 m c (Proc.devRef .tc main_arg4)
    _ = B3 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg4) := B3_of_ne m c main_arg4 (by decide)
    _ = B1 m c (Proc.devRef .tc main_arg4) := B2_of_ne m c main_arg4 (by decide)
    _ = B0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem B4_main_arg5 (c : Dev nD) : B4 m c (Proc.devRef .tc main_arg5) = m ((c : Thread nD τ).loc main_arg5) :=
  calc B4 m c (Proc.devRef .tc main_arg5)
    _ = B3 m c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg5) := B3_of_ne m c main_arg5 (by decide)
    _ = B1 m c (Proc.devRef .tc main_arg5) := (B2_arr m c 3).trans (((dat0 (E1 m) c).arrAt_in 3 rfl _).trans (A_eq0 (E1 m) c 3))
    _ = B0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem B4_main_arg6 (c : Dev nD) : B4 m c (Proc.devRef .tc main_arg6) = m ((c : Thread nD τ).loc main_arg6) :=
  calc B4 m c (Proc.devRef .tc main_arg6)
    _ = B3 m c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg6) := B3_of_ne m c main_arg6 (by decide)
    _ = B1 m c (Proc.devRef .tc main_arg6) := B2_of_ne m c main_arg6 (by decide)
    _ = B0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and what rides along -/

abbrev admT : (p : Fin 2) → (pcfgs (F := F) p).Adm := fun p => (cfgs p).toPCfg_adm
/-- Each pipeline's proof data at its region's entry contents. -/
def pd : (p : Fin 2) → (c : Dev nD) → Dat τ (Elt F) Unit ℕ (UR sig nD τ) ℕ (Pipeline.pin (pcfgs (F := F)) admT p) c
  | ⟨0, _⟩ => fun c => dat0 (E1 m) c
  | ⟨1, _⟩ => fun c => dat1 (E2 m) c
abbrev 𝒱ₙ : Variants := Variants.none
abbrev Lₙ : GSem nD τ sig → Finset Unit := fun _ => ∅
abbrev lvₙ : GSem nD τ sig → Unit → ℕ := fun _ _ => 0
/-- Beside the buffers: the generator register at some state, and the core owing nothing. -/
abbrev Rider (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rider
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m c) ∗ ∃ r, prngReg c r)

/-! ## The regions as items -/

set_option backward.isDefEq.respectTransparency.types false in
/-- Region 0 as an item of @main: entered with every unscoped buffer at the boundary's contents, left with its
    arrays at what its write-backs leave and every other buffer as entered. Its arrays are split out of the unscoped
    buffers at entry and put back at exit; the generator register and the scoped rest pass through the invariant
    (the accumulator at anything before the first point, its named contents forgotten after the last); nothing owed. -/
def region0 : Pipeline.RegionSeg (pcfgs (F := F)) admT (pd m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lₙ lvₙ 0 fun _ _ => rfl
  pre c := iprop(StableHlo.held (c : Thread nD τ) (Pipeline.ucRefs τ sig) (B1 m c) ∗ Rider c)
  post c := iprop(StableHlo.held (c : Thread nD τ) (Pipeline.ucRefs τ sig) (B2 m c) ∗ Rider c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admT (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (admT (F := F) 0).1
          ∗ Pipeline.scopedRest (Pipeline.pin (pcfgs (F := F)) admT 0).spec c) : sProp 𝕄) ⊢ Pipeline.ΦA spec0 c := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄) ⊢ iprop((∃ r, prngReg c r) ∗ BI.emp
          ∗ Pipeline.scopedRest (Pipeline.pin (pcfgs (F := F)) admT 0).spec c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) admT (Ix := Unit) (Name := ℕ) (U := UR sig nD τ) (Lvl := ℕ)
      launch0.win launch0.arr_whole c (pd m) ((pd m 0 c).share_full fun _ => rfl)
      (E1 m c) (E2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as an item of @main: entered with every unscoped buffer at the boundary's contents, left with its
    arrays at what its write-backs leave and every other buffer as entered. Its arrays are split out of the unscoped
    buffers at entry and put back at exit; the generator register and the scoped rest pass through the invariant
    (the accumulator at anything before the first point, its named contents forgotten after the last); nothing owed. -/
def region1 : Pipeline.RegionSeg (pcfgs (F := F)) admT (pd m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lₙ lvₙ 1 fun _ _ => rfl
  pre c := iprop(StableHlo.held (c : Thread nD τ) (Pipeline.ucRefs τ sig) (B2 m c) ∗ Rider c)
  post c := iprop(StableHlo.held (c : Thread nD τ) (Pipeline.ucRefs τ sig) (B3 m c) ∗ Rider c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admT (pd m) launch1.win launch1.arr_whole c
      ((pd m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (admT (F := F) 1).1
          ∗ Pipeline.scopedRest (Pipeline.pin (pcfgs (F := F)) admT 1).spec c) : sProp 𝕄) ⊢ Pipeline.ΦA spec1 c := by
      unfold Pipeline.ΦA
      iintro ⟨Hp, -, Hr⟩
      isplitl [Hr]; · iexact Hr
      iexact Hp
    exact h.trans (hin1 (E2 m) c)
  hout c := by
    rw [Pipeline.ownSems0_none]
    have h : (Pipeline.ΦA spec1 c : sProp 𝕄) ⊢ iprop((∃ r, prngReg c r) ∗ BI.emp
          ∗ Pipeline.scopedRest (Pipeline.pin (pcfgs (F := F)) admT 1).spec c) := by
      unfold Pipeline.ΦA
      iintro ⟨Hr, Hp⟩
      isplitl [Hp]; · iexact Hp
      isplitr; · iempintro
      iexact Hr
    exact (hout1 (E2 m) c).trans h
  hexit c := by
    have hjoin := Pipeline.unscopedBufs_of_arrays (p := 1) (pcfgs (F := F)) admT (Ix := Unit) (Name := ℕ) (U := UR sig nD τ) (Lvl := ℕ)
      launch1.win launch1.arr_whole c (pd m) ((pd m 1 c).share_full fun _ => rfl)
      (E2 m c) (E3 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the run -/

abbrev items : List (Pipeline.Seg (pcfgs (F := F)) admT (pd m) () defs₀ 𝒱ₙ Lₙ lvₙ) :=
  [ .host (hostItem hostOps0 hostOps0_sub hostOps0_fresh (B0 m)),
    .region (region0 m),
    .region (region1 m),
    .host (hostItem hostOps2 hostOps2_sub hostOps2_fresh (B3 m)) ]
theorem main_run (c : Dev nD) : main (F := F) c = Pipeline.Seg.run (items m) := (main_chain c).trans (by chain_rfl)

variable (ρ : Dev nD → PrngReg)

set_option backward.isDefEq.respectTransparency.types false in
/-- Every weakly fair execution of @main from memory m with zero counters terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) admT (pd m) () cellOf_inj emb₁ defs₀ 𝒱ₙ Lₙ lvₙ m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rider c)) (Tₙ := Tend m)
    (hch := ⟨fun _ => .rfl, fun _ => .rfl, fun _ => .rfl, fun _ => .rfl, fun c => by
      show (iprop(StableHlo.held (c : Thread nD τ) (Pipeline.ucRefs τ sig) (B4 m c) ∗ Rider c) : sProp 𝕄)
        ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lₙ lvₙ fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c)⟩) (run_all m ρ)

/-- The run with the result named: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v4) = B4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v4 (by decide)),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c)⟩) (run_all m ρ)

end Cert.Kernel.Fr

end
-- ==== Proof.Ideal.Shared.lean ====
/-
  What the two kernel regions' runs and proof data are stated over, at any float instance.
  Region 0 walks the contraction axis of the first matrix product in four blocks (grid point k), keeping the
  partial products in a scratch accumulator that point 0 clears; at point 3 it adds the first bias, forms the
  second product and its bias (the embedding), and from it the positive scores. Region 1 walks a 4 x 4 grid
  (n, d), t = 4 n + d: along d it accumulates, in a scratch that d = 0 clears, the lane sums of the squared
  positive parts; at d = 3 it writes the negative scores of column block n.
  Here: each window's block at a point read off the array the region is entered with (a parameter V), every input
  window found at its block at every point, the two branch conditions of each body in closed form over the
  grid, where the output windows are idle and where they are written back, the staging and scratch memrefs as the
  pipeline passes them, and the region invariant's scoped rest split at the kernel's own scratch.
-/
import proofs.«118560_j28226525069938_1_alg».proof.Proof.Gen.KernelIdeal.Launch
import proofs.«118560_j28226525069938_1_alg».proof.Proof.Gen.KernelIdeal.Skeleton
import proofs.«118560_j28226525069938_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Region 0: window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: where it is
    not fetched its block index has not moved. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 0: the branch conditions over the grid -/

/-- "this is the first block of the contraction axis": the body clears its accumulator. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "this is the last block": the body finishes the embedding and the positive scores. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last block output 6 is idle and not written back; at the last block it is live. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Away from the last block output 7 is idle and not written back; at the last block it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## Region 0: the memrefs the body is called with -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
/-- The accumulator of the first product: a scoped buffer of the kernel's own. -/
abbrev scM0 : Memref sig .tc .vmem S256x2048 .f32 := Memref.whole cc0_scratch0
abbrev VS0 : View sig .tc .vmem S256x2048 .f32 := scM0.view
/-- One staging buffer of each output window, through which its contents are stated. -/
abbrev VO0_6 : View sig .tc .vmem S256x512 .f32 := (Memref.whole cc0_stg6_0 : Memref sig .tc .vmem S256x512 .f32).view
abbrev VO0_7 : View sig .tc .vmem S256x1 .f32 := (Memref.whole cc0_stg7_0 : Memref sig .tc .vmem S256x1 .f32).view

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The other scoped buffers of the core, unopened. -/
abbrev rest0 (c : Dev nD) : sProp 𝕄 := Pipeline.scopedRestBut (Ix := Unit) (Name := ℕ) (U := UR sig nD τ) (Lvl := ℕ) (Val := Elt F) spec0 c [cc0_scratch0]

/-- What the region hands the body besides the windows: the accumulator at some contents, the other scoped buffers
    unopened, the generator register at some state. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; rfl

/-! ## Region 1: the branch conditions over the grid -/

/-- "this is the first lane block of the embedding axis": the body clears its accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "this is the last lane block": the body writes the negative scores of its column block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## Region 1: the memrefs the body is called with -/
abbrev ms1_0 (t : Fin cfg1.N) : Memref sig .tc .vmem S256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
/-- The accumulator of the lane sums: a scoped buffer of the kernel's own. -/
abbrev scM1 : Memref sig .tc .vmem S256x128 .f32 := Memref.whole cc1_scratch0
abbrev VS1 : View sig .tc .vmem S256x128 .f32 := scM1.view
abbrev VO1_2 : View sig .tc .vmem S256x128 .f32 := (Memref.whole cc1_stg2_0 : Memref sig .tc .vmem S256x128 .f32).view

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

abbrev rest1 (c : Dev nD) : sProp 𝕄 := Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; rfl

end Cert.KernelIdeal.Fr

end
-- ==== Proof.Ideal.Run0A.lean ====
/-
  Region 0, first block of the contraction axis (point 0): the accumulator is cleared, then receives this block's partial product.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Ideal.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) :
    { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg9 fullShare d)
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Fr

end
-- ==== Proof.Ideal.Run0B.lean ====
/-
  Region 0, an inner block of the contraction axis (points 1, 2): this block's partial product is added to what the point before left in the accumulator.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Ideal.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) :
    { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg9 fullShare xs0
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Fr

end
-- ==== Proof.Ideal.Run0C.lean ====
/-
  Region 0, last block of the contraction axis (point 3): the last partial product is added, then the first bias, the second product and its bias give the embedding, and the positive scores follow from it.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Ideal.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) :
    Σ' (L7 : List (View.Piece (Elt F) S256x512 .f32)), Σ' (L8 : List (View.Piece (Elt F) S256x1 .f32)), { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%do0, %fo0, -, HO0⟩, ⟨%do1, %fo1, -, HO1⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HO0]; · iexists _; iexact HO0
    isplitl [HO1]; · iexists _; iexact HO1
    iexists _; iexact HS0

end Cert.KernelIdeal.Fr

end
-- ==== Proof.Ideal.Region0Defs.lean ====
/-
  Region 0: what its buffers hold point by point, and the pipeline's proof data, at any float instance and at a
  parameter V (the arrays as the region is entered).
  Points 0..3 are the four blocks of the first product's contraction axis: case A at point 0, case B at points 1 and 2, case C at point 3.
-/
import proofs.«118560_j28226525069938_1_alg».proof.Proof.Ideal.Run0A
import proofs.«118560_j28226525069938_1_alg».proof.Proof.Ideal.Run0B
import proofs.«118560_j28226525069938_1_alg».proof.Proof.Ideal.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A: what the body leaves in the accumulator (its pieces read back), and that they cover it. -/
theorem scover0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) (y : S256x2048.Idx) :
    ∃ pc ∈ (kernelRun0_A (F := F) c i arg1 harg1 arg2 harg2 arg3 harg3 arg4 harg4 arg5 harg5 arg6 harg6 arg7 harg7 arg8 harg8 arg9 harg9 hc0 hc1 x0 x1).1, y ∈ pc.1.set :=
  View.cover_of_tiledL (kernelRun0_A (F := F) c i arg1 harg1 arg2 harg2 arg3 harg3 arg4 harg4 arg5 harg5 arg6 harg6 arg7 harg7 arg8 harg8 arg9 harg9 hc0 hc1 x0 x1).1 S256x2048.size (by sl_kernel_rfl) y
def sout0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) : Vec F S256x2048 .f32 :=
  VS0.read (Elt F) (VS0.writes (Elt F) VS0.junk (kernelRun0_A (F := F) c i arg1 harg1 arg2 harg2 arg3 harg3 arg4 harg4 arg5 harg5 arg6 harg6 arg7 harg7 arg8 harg8 arg9 harg9 hc0 hc1 x0 x1).1)

/-- Case B: what the body leaves in the accumulator (its pieces read back), and that they cover it. -/
theorem scover0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) (y : S256x2048.Idx) :
    ∃ pc ∈ (kernelRun0_B (F := F) c i arg1 harg1 arg2 harg2 arg3 harg3 arg4 harg4 arg5 harg5 arg6 harg6 arg7 harg7 arg8 harg8 arg9 harg9 hc0 hc1 x0 x1 xs0).1, y ∈ pc.1.set :=
  View.cover_of_tiledL (kernelRun0_B (F := F) c i arg1 harg1 arg2 harg2 arg3 harg3 arg4 harg4 arg5 harg5 arg6 harg6 arg7 harg7 arg8 harg8 arg9 harg9 hc0 hc1 x0 x1 xs0).1 S256x2048.size (by sl_kernel_rfl) y
def sout0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) : Vec F S256x2048 .f32 :=
  VS0.read (Elt F) (VS0.writes (Elt F) VS0.junk (kernelRun0_B (F := F) c i arg1 harg1 arg2 harg2 arg3 harg3 arg4 harg4 arg5 harg5 arg6 harg6 arg7 harg7 arg8 harg8 arg9 harg9 hc0 hc1 x0 x1 xs0).1)

/-- Case C: what the body leaves in the accumulator (its pieces read back), and that they cover it. -/
theorem scover0_C (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) (y : S256x2048.Idx) :
    ∃ pc ∈ (kernelRun0_C (F := F) c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_C (F := F) c i arg1 harg1 arg2 harg2 arg3 harg3 arg4 harg4 arg5 harg5 arg6 harg6 arg7 harg7 arg8 harg8 arg9 harg9 hc0 hc1 x0 x1 x2 x3 x4 x5 xs0).2.2.1 S256x2048.size (by sl_kernel_rfl) y
def sout0_C (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) : Vec F S256x2048 .f32 :=
  VS0.read (Elt F) (VS0.writes (Elt F) VS0.junk (kernelRun0_C (F := F) c i arg1 harg1 arg2 harg2 arg3 harg3 arg4 harg4 arg5 harg5 arg6 harg6 arg7 harg7 arg8 harg8 arg9 harg9 hc0 hc1 x0 x1 x2 x3 x4 x5 xs0).2.2.1)
/-- Case C: what the body leaves in output window 6's buffer, and that its pieces cover it. -/
theorem cover0_C_6 (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) (y : S256x512.Idx) :
    ∃ pc ∈ (kernelRun0_C (F := F) c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C (F := F) c i arg1 harg1 arg2 harg2 arg3 harg3 arg4 harg4 arg5 harg5 arg6 harg6 arg7 harg7 arg8 harg8 arg9 harg9 hc0 hc1 x0 x1 x2 x3 x4 x5 xs0).1 S256x512.size (by sl_kernel_rfl) y
def out0_C_6 (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) : Vec F S256x512 .f32 :=
  VO0_6.read (Elt F) (VO0_6.writes (Elt F) VO0_6.junk (kernelRun0_C (F := F) c i arg1 harg1 arg2 harg2 arg3 harg3 arg4 harg4 arg5 harg5 arg6 harg6 arg7 harg7 arg8 harg8 arg9 harg9 hc0 hc1 x0 x1 x2 x3 x4 x5 xs0).1)
/-- Case C: what the body leaves in output window 7's buffer, and that its pieces cover it. -/
theorem cover0_C_7 (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) (y : S256x1.Idx) :
    ∃ pc ∈ (kernelRun0_C (F := F) c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C (F := F) c i arg1 harg1 arg2 harg2 arg3 harg3 arg4 harg4 arg5 harg5 arg6 harg6 arg7 harg7 arg8 harg8 arg9 harg9 hc0 hc1 x0 x1 x2 x3 x4 x5 xs0).2.1 S256x1.size (by sl_kernel_rfl) y
def out0_C_7 (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) : Vec F S256x1 .f32 :=
  VO0_7.read (Elt F) (VO0_7.writes (Elt F) VO0_7.junk (kernelRun0_C (F := F) c i arg1 harg1 arg2 harg2 arg3 harg3 arg4 harg4 arg5 harg5 arg6 harg6 arg7 harg7 arg8 harg8 arg9 harg9 hc0 hc1 x0 x1 x2 x3 x4 x5 xs0).2.1)

section AtV
variable (V : (c : Dev nD) → (b : Ref sig .tc) → Buf (Elt F) ((c : Thread nD τ).loc b))

/-! ## What the buffers hold after each point -/

/-- After the body at position n: output window 6's staging buffer, output window 7's staging buffer, then the accumulator. At a point where an
    output is idle its component is a placeholder nothing reads. The case is the one the closed forms select; cases B
    and C start from what the point before left in the accumulator. -/
def outsAt0 (c : Dev nD) : (n : ℕ) → n < cfg0.N → Vec F S256x512 .f32 × Vec F S256x1 .f32 × Vec F S256x2048 .f32
  | 0, hn => (VO0_6.read (Elt F) VO0_6.junk, VO0_7.read (Elt F) VO0_7.junk, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (VO0_6.read (Elt F) VO0_6.junk, VO0_7.read (Elt F) VO0_7.junk, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
      else
        (VO0_6.read (Elt F) VO0_6.junk, VO0_7.read (Elt F) VO0_7.junk, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 V c t.val t.isLt = (VO0_6.read (Elt F) VO0_6.junk, VO0_7.read (Elt F) VO0_7.junk, sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (VO0_6.read (Elt F) VO0_6.junk, VO0_7.read (Elt F) VO0_7.junk, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before the first point: the accumulator at anything. Afterwards: at what the point before left in it. Beside it
    the other scoped buffers unopened and the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ rest0 c) ∗ (∃ r, prngReg c r)) := by
  cases n with
  | zero => exact absurd rfl hz
  | succ n => rfl

/-! ## The proof data -/

/-- The arrays as the region finds them; after the body at point t each input's buffer at its block, each output's at
    what the point leaves (outsAt0); the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end AtV

end Cert.KernelIdeal.Fr

end
-- ==== Proof.Ideal.Region0Body.lean ====
/-
  Region 0: the body obligation at every grid point, and the invariant at the region's two ends.
-/
import proofs.«118560_j28226525069938_1_alg».proof.Proof.Ideal.Region0Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-! ## The body obligation, at a generic point -/

/-- What the body is called with at point t: the invariant, nothing owed, and every window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. Every input's buffer holds its block; the closed forms of the two conditions say which
    case the point is in; that case's run applies to the buffers it touches, the others riding along untouched. The
    invariant hands over the accumulator (at anything before the first point, at what the point before left
    afterwards) and takes it back at this point's contents, its pieces covering it. At the last block the two output
    buffers come back at their pieces read back, which cover them; elsewhere they are idle and handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 4 := lt_of_lt_of_eq t.isLt (show cfg0.N = 4 from N_0)
  by_cases h0 : t.val % 4 = 0
  · by_cases h1 : t.val % 4 = 3
    · exfalso; omega
    · -- first block: the accumulator is cleared, so whatever it held is given up
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, H6, H7⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t)).2 Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t))
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, H6, H7⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t)).2 Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t))
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · by_cases h1 : t.val % 4 = 3
    · -- last block: the accumulator is updated, then the two outputs are stored whole
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold out0_C_6 out0_C_7 sout0_C; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2)
        unfold owns; iexists _; isplitr
        swap; · iexact H7
        ipureintro; exact View.read_writes_of_cover _ _ _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2)
    · -- a middle block: the accumulator is updated
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold sout0_B; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, H6, H7⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2).2 Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over: the accumulator's named
    contents are forgotten, the other scoped buffers and the generator register pass through. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

/-- After the last point the invariant gives it back: the accumulator's named contents are forgotten. -/
theorem hout0 (c : Dev nD) : (dat0 V c).Φ (Fin.last cfg0.N) ⊢ (Pipeline.ΦA spec0 c : sProp 𝕄) :=
  Phi_out0 V c _ (by rw [Fin.val_last]; have : cfg0.N = 4 := N_0; omega)

end AtV

end Cert.KernelIdeal.Fr

end
-- ==== Proof.Ideal.Run1A.lean ====
/-
  Region 1, first lane block (d = 0): the accumulator is cleared, then receives this block's lane sums of squared positive parts.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Ideal.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : cond1_0 i) (hc1 : ¬cond1_1 i)
    (x0 : Vec F S256x128 .f32) (x1 : Vec F S128x128 .f32) :
    { LS0 : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg5 fullShare d)
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨?_, fun E K => ?run⟩
  case run =>
    simp only [cc1__score_kernel_eq_skeleton]; unfold cc1__score_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.Ideal.Run1B.lean ====
/-
  Region 1, an inner lane block (d = 1, 2): this block's lane sums are added to what the point before left.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Ideal.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : ¬cond1_1 i)
    (x0 : Vec F S256x128 .f32) (x1 : Vec F S128x128 .f32) (xs0 : Vec F S256x128 .f32) :
    { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg5 fullShare xs0
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨?_, fun E K => ?run⟩
  case run =>
    simp only [cc1__score_kernel_eq_skeleton]; unfold cc1__score_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.Ideal.Run1C.lean ====
/-
  Region 1, last lane block (d = 3): the last lane sums are added and the negative scores of the column block are written.
  The body's triple on whole staging memrefs at any float instance: from the buffers this case reads at their
  contents (and the ones it writes at anything) the printed body runs to the continuation holding the read buffers
  as they were and each written buffer with its stores applied, as a list of pieces (last first) that the run itself
  finds. The buffers this case does not touch are not mentioned: they ride along as a frame.
-/
import proofs.«118560_j28226525069938_1_alg».proof.Proof.Ideal.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) :
    Σ' (L4 : List (View.Piece (Elt F) S256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f LS0)) -∗ K ⟨⟩))
          ⊢ wp frame (wpE (defs₀ (F := F)) Variants.none c none) E (cc1__score_kernel i arg2 harg2 arg3 harg3 arg4 harg4 arg5 harg5) K } := by
  refine ⟨?_, ?_, fun E K => ?run⟩
  case run =>
    simp only [cc1__score_kernel_eq_skeleton]; unfold cc1__score_kernel_skel
    unfold owns
    iintro ⟨⟨%f0, %hf0, H0⟩, ⟨%f1, %hf1, H1⟩, ⟨%do0, %fo0, -, HO0⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO0]; · iexists _; iexact HO0
    iexists _; iexact HS0

end Cert.KernelIdeal.Fr

end
-- ==== Proof.Ideal.Region1Defs.lean ====
/-
  Region 1: what its buffers hold point by point, and the pipeline's proof data, at any float instance and at a
  parameter V (the arrays as the region is entered).
  Point t = 4 n + d: case A where d = 0, case B where d = 1 or 2, case C where d = 3; the accumulator is cleared at every d = 0.
-/
import proofs.«118560_j28226525069938_1_alg».proof.Proof.Ideal.Run1A
import proofs.«118560_j28226525069938_1_alg».proof.Proof.Ideal.Run1B
import proofs.«118560_j28226525069938_1_alg».proof.Proof.Ideal.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A: what the body leaves in the accumulator (its pieces read back), and that they cover it. -/
theorem scover1_A (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : cond1_0 i) (hc1 : ¬cond1_1 i)
    (x0 : Vec F S256x128 .f32) (x1 : Vec F S128x128 .f32) (y : S256x128.Idx) :
    ∃ pc ∈ (kernelRun1_A (F := F) c i arg2 harg2 arg3 harg3 arg4 harg4 arg5 harg5 hc0 hc1 x0 x1).1, y ∈ pc.1.set :=
  View.cover_of_tiledL (kernelRun1_A (F := F) c i arg2 harg2 arg3 harg3 arg4 harg4 arg5 harg5 hc0 hc1 x0 x1).1 S256x128.size (by sl_kernel_rfl) y
def sout1_A (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : cond1_0 i) (hc1 : ¬cond1_1 i)
    (x0 : Vec F S256x128 .f32) (x1 : Vec F S128x128 .f32) : Vec F S256x128 .f32 :=
  VS1.read (Elt F) (VS1.writes (Elt F) VS1.junk (kernelRun1_A (F := F) c i arg2 harg2 arg3 harg3 arg4 harg4 arg5 harg5 hc0 hc1 x0 x1).1)

/-- Case B: what the body leaves in the accumulator (its pieces read back), and that they cover it. -/
theorem scover1_B (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : ¬cond1_1 i)
    (x0 : Vec F S256x128 .f32) (x1 : Vec F S128x128 .f32) (xs0 : Vec F S256x128 .f32) (y : S256x128.Idx) :
    ∃ pc ∈ (kernelRun1_B (F := F) c i arg2 harg2 arg3 harg3 arg4 harg4 arg5 harg5 hc0 hc1 x0 x1 xs0).1, y ∈ pc.1.set :=
  View.cover_of_tiledL (kernelRun1_B (F := F) c i arg2 harg2 arg3 harg3 arg4 harg4 arg5 harg5 hc0 hc1 x0 x1 xs0).1 S256x128.size (by sl_kernel_rfl) y
def sout1_B (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : ¬cond1_1 i)
    (x0 : Vec F S256x128 .f32) (x1 : Vec F S128x128 .f32) (xs0 : Vec F S256x128 .f32) : Vec F S256x128 .f32 :=
  VS1.read (Elt F) (VS1.writes (Elt F) VS1.junk (kernelRun1_B (F := F) c i arg2 harg2 arg3 harg3 arg4 harg4 arg5 harg5 hc0 hc1 x0 x1 xs0).1)

/-- Case C: what the body leaves in the accumulator (its pieces read back), and that they cover it. -/
theorem scover1_C (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) (y : S256x128.Idx) :
    ∃ pc ∈ (kernelRun1_C (F := F) c i arg2 harg2 arg3 harg3 arg4 harg4 arg5 harg5 hc0 hc1 x0 x1 xs0).2.1, y ∈ pc.1.set :=
  View.cover_of_tiledL (kernelRun1_C (F := F) c i arg2 harg2 arg3 harg3 arg4 harg4 arg5 harg5 hc0 hc1 x0 x1 xs0).2.1 S256x128.size (by sl_kernel_rfl) y
def sout1_C (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) : Vec F S256x128 .f32 :=
  VS1.read (Elt F) (VS1.writes (Elt F) VS1.junk (kernelRun1_C (F := F) c i arg2 harg2 arg3 harg3 arg4 harg4 arg5 harg5 hc0 hc1 x0 x1 xs0).2.1)
/-- Case C: what the body leaves in output window 2's buffer, and that its pieces cover it. -/
theorem cover1_C_2 (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) (y : S256x128.Idx) :
    ∃ pc ∈ (kernelRun1_C (F := F) c i arg2 harg2 arg3 harg3 arg4 harg4 arg5 harg5 hc0 hc1 x0 x1 xs0).1, y ∈ pc.1.set :=
  View.cover_of_tiledL (kernelRun1_C (F := F) c i arg2 harg2 arg3 harg3 arg4 harg4 arg5 harg5 hc0 hc1 x0 x1 xs0).1 S256x128.size (by sl_kernel_rfl) y
def out1_C_2 (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) : Vec F S256x128 .f32 :=
  VO1_2.read (Elt F) (VO1_2.writes (Elt F) VO1_2.junk (kernelRun1_C (F := F) c i arg2 harg2 arg3 harg3 arg4 harg4 arg5 harg5 hc0 hc1 x0 x1 xs0).1)

section AtV
variable (V : (c : Dev nD) → (b : Ref sig .tc) → Buf (Elt F) ((c : Thread nD τ).loc b))

/-! ## What the buffers hold after each point -/

/-- After the body at position n: output window 2's staging buffer, then the accumulator. At a point where an
    output is idle its component is a placeholder nothing reads. The case is the one the closed forms select; cases B
    and C start from what the point before left in the accumulator. -/
def outsAt1 (c : Dev nD) : (n : ℕ) → n < cfg1.N → Vec F S256x128 .f32 × Vec F S256x128 .f32
  | 0, hn => (VO1_2.read (Elt F) VO1_2.junk, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (VO1_2.read (Elt F) VO1_2.junk, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (VO1_2.read (Elt F) VO1_2.junk, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (VO1_2.read (Elt F) VO1_2.junk, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (VO1_2.read (Elt F) VO1_2.junk, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried from point to point -/

/-- Before the first point: the accumulator at anything. Afterwards: at what the point before left in it. Beside it
    the other scoped buffers unopened and the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The proof data -/

/-- The arrays as the region finds them; after the body at point t each input's buffer at its block, each output's at
    what the point leaves (outsAt1); the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end AtV

end Cert.KernelIdeal.Fr

end
-- ==== Proof.Ideal.Region1Body.lean ====
/-
  Region 1: the body obligation at every grid point, and the invariant at the region's two ends.
-/
import proofs.«118560_j28226525069938_1_alg».proof.Proof.Ideal.Region1Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-! ## The body obligation, at a generic point -/

/-- What the body is called with at point t: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The first lane block of a column block, at the region's very first point: the accumulator comes at anything
    (the launch's invariant), is cleared and filled; the output window is idle and rides along untouched. -/
theorem sound_body1_A0 (c : Dev nD) (t : Fin cfg1.N) (h0 : t.val % 4 = 0) (h1 : ¬t.val % 4 = 3) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [Dat.leavesExact_idle (dat1 V c) 2 t (idleAt1_2 t (fun h => h1 ((hcond1_1 t).mp h))) (noFlush1_2 t (fun h => h1 ((hcond1_1 t).mp h)))]
  rw [outsAt1_A V c t h0 h1]
  unfold sout1_A; (try dsimp only)
  rw [PhiS1_castSucc V c t, PhiS1_zero V c _ _ hz, PhiA1_eq]
  iintro ⟨⟨⟨HS0, Hrest⟩, Hg⟩, Ho, ⟨%d0, H0⟩, ⟨%d1, H1⟩, H2⟩
  iapply ((kernelRun1_A (F := F) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2 Set.univ _)
  isplitl [H0]; · iexact H0
  isplitl [H1]; · iexact H1
  isplitl [HS0]; · iexact HS0
  iintro ⟨H0, H1, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover1_A c _ _ _ _ _ _ _ _ _ _ _ _ _)
      iexact Hrest
    iexact Hg
  isplitl [Ho]; · iexact Ho
  isplitl [H0]; · iexact H0
  isplitl [H1]; · iexact H1
  iexact H2

set_option maxHeartbeats 4800000 in
/-- The first lane block of a later column block: the accumulator comes at what the point before left, and is
    cleared all the same. -/
theorem sound_body1_A (c : Dev nD) (t : Fin cfg1.N) (h0 : t.val % 4 = 0) (h1 : ¬t.val % 4 = 3) (hz : ¬t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [Dat.leavesExact_idle (dat1 V c) 2 t (idleAt1_2 t (fun h => h1 ((hcond1_1 t).mp h))) (noFlush1_2 t (fun h => h1 ((hcond1_1 t).mp h)))]
  rw [outsAt1_A V c t h0 h1]
  unfold sout1_A; (try dsimp only)
  rw [PhiS1_castSucc V c t, PhiS1_pos V c _ _ hz]
  iintro ⟨⟨⟨HS0, Hrest⟩, Hg⟩, Ho, ⟨%d0, H0⟩, ⟨%d1, H1⟩, H2⟩
  iapply ((kernelRun1_A (F := F) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2 Set.univ _)
  isplitl [H0]; · iexact H0
  isplitl [H1]; · iexact H1
  isplitl [HS0]; · iexists _; iexact HS0
  iintro ⟨H0, H1, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover1_A c _ _ _ _ _ _ _ _ _ _ _ _ _)
      iexact Hrest
    iexact Hg
  isplitl [Ho]; · iexact Ho
  isplitl [H0]; · iexact H0
  isplitl [H1]; · iexact H1
  iexact H2

set_option maxHeartbeats 4800000 in
/-- A middle lane block: the accumulator comes at what the point before left and is added to; the output window is
    idle and rides along untouched. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  have hz : t.val ≠ 0 := fun h => h0 (by rw [h])
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [Dat.leavesExact_idle (dat1 V c) 2 t (idleAt1_2 t (fun h => h1 ((hcond1_1 t).mp h))) (noFlush1_2 t (fun h => h1 ((hcond1_1 t).mp h)))]
  rw [outsAt1_B V c t h0 h1]
  unfold sout1_B; (try dsimp only)
  rw [PhiS1_castSucc V c t, PhiS1_pos V c _ _ hz]
  iintro ⟨⟨⟨HS0, Hrest⟩, Hg⟩, Ho, ⟨%d0, H0⟩, ⟨%d1, H1⟩, H2⟩
  iapply ((kernelRun1_B (F := F) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2 Set.univ _)
  isplitl [H0]; · iexact H0
  isplitl [H1]; · iexact H1
  isplitl [HS0]; · iexact HS0
  iintro ⟨H0, H1, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover1_B c _ _ _ _ _ _ _ _ _ _ _ _ _ _)
      iexact Hrest
    iexact Hg
  isplitl [Ho]; · iexact Ho
  isplitl [H0]; · iexact H0
  isplitl [H1]; · iexact H1
  iexact H2

set_option maxHeartbeats 4800000 in
/-- The last lane block: the accumulator comes at what the point before left and is added to, and the output
    window's buffer, handed over at anything, is stored whole. -/
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  have hz : t.val ≠ 0 := fun h => h0 (by rw [h])
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t ((hcond1_1 t).mpr h1)], after1_2]
  rw [outsAt1_C V c t h0 h1]
  unfold out1_C_2 sout1_C; (try dsimp only)
  rw [PhiS1_castSucc V c t, PhiS1_pos V c _ _ hz]
  iintro ⟨⟨⟨HS0, Hrest⟩, Hg⟩, Ho, ⟨%d0, H0⟩, ⟨%d1, H1⟩, ⟨%d2, H2⟩⟩
  iapply ((kernelRun1_C (F := F) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover1_C c _ _ _ _ _ _ _ _ _ _ _ _ _ _)
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover1_C_2 c _ _ _ _ _ _ _ _ _ _ _ _ _ _)

/-- The body at any point: the closed forms of the two conditions say which case the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · by_cases h1 : t.val % 4 = 3
    · exfalso; omega
    · by_cases hz : t.val = 0
      · exact sound_body1_A0 V c t h0 h1 hz
      · exact sound_body1_A V c t h0 h1 hz
  · by_cases h1 : t.val % 4 = 3
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

/-- After the last point the invariant gives it back: the accumulator's named contents are forgotten. -/
theorem hout1 (c : Dev nD) : (dat1 V c).Φ (Fin.last cfg1.N) ⊢ (Pipeline.ΦA spec1 c : sProp 𝕄) :=
  Phi_out1 V c _ (by rw [Fin.val_last]; have : cfg1.N = 16 := N_1; omega)

end AtV

end Cert.KernelIdeal.Fr

end
-- ==== Proof.Ideal.Main.lean ====
/-
  The kernel program's run, at any float instance: @main is a stretch of two host reshapes (the biases as one-row
  matrices), region 0, region 1, and one host concatenation. The unscoped buffers' contents are followed from the
  launch through each item: a host stretch applies its operations; a region leaves each of its arrays at what its
  write-backs leave and every other buffer as it found it. Every weakly fair execution terminates without a fault,
  and in the final state every unscoped buffer holds the last boundary's contents. From that: the seven argument
  arrays end as launched (no host operation and no region writes one), and the result array is the concatenation
  of region 0's positive scores with region 1's negative scores.
-/
import proofs.«118560_j28226525069938_1_alg».proof.Proof.Ideal.Region0Body
import proofs.«118560_j28226525069938_1_alg».proof.Proof.Ideal.Region1Body
import proofs.«118560_j28226525069938_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main -/

/-- At launch. -/
abbrev B0 : Dev nD → Valuation τ sig (Elt F) := fun c b => m (c, b)
/-- After the two reshapes (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After region 0 (region 1's entry): its arrays at what the pipeline leaves, the rest as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After region 1. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)
/-- After the concatenation (the end). -/
abbrev B4 : Dev nD → Valuation τ sig (Elt F) := fun c => StableHlo.after hostOps2 (B3 m c)

/-! ## The arguments end as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg0) := B3_of_ne m c main_arg0 (by decide)
    _ = B1 m c (Proc.devRef .tc main_arg0) := (B2_arr m c 0).trans (((dat0 (E1 m) c).arrAt_in 0 rfl _).trans (A_eq0 (E1 m) c 0))
    _ = B0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem B4_main_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg1) := B3_of_ne m c main_arg1 (by decide)
    _ = B1 m c (Proc.devRef .tc main_arg1) := (B2_arr m c 5).trans (((dat0 (E1 m) c).arrAt_in 5 rfl _).trans (A_eq0 (E1 m) c 5))
    _ = B0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem B4_main_arg2 (c : Dev nD) : B4 m c (Proc.devRef .tc main_arg2) = m ((c : Thread nD τ).loc main_arg2) :=
  calc B4 m c (Proc.devRef .tc main_arg2)
    _ = B3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg2) := (B3_arr m c 1).trans (((dat1 (E2 m) c).arrAt_in 1 rfl _).trans (A_eq1 (E2 m) c 1))
    _ = B1 m c (Proc.devRef .tc main_arg2) := B2_of_ne m c main_arg2 (by decide)
    _ = B0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem B4_main_arg3 (c : Dev nD) : B4 m c (Proc.devRef .tc main_arg3) = m ((c : Thread nD τ).loc main_arg3) :=
  calc B4 m c (Proc.devRef .tc main_arg3)
    _ = B3 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg3) := B3_of_ne m c main_arg3 (by decide)
    _ = B1 m c (Proc.devRef .tc main_arg3) := (B2_arr m c 1).trans (((dat0 (E1 m) c).arrAt_in 1 rfl _).trans (A_eq0 (E1 m) c 1))
    _ = B0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem B4_main_arg4 (c : Dev nD) : B4 m c (Proc.devRef .tc main_arg4) = m ((c : Thread nD τ).loc main_arg4) :=
  calc B4 m c (Proc.devRef .tc main_arg4)
    _ = B3 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg4) := B3_of_ne m c main_arg4 (by decide)
    _ = B1 m c (Proc.devRef .tc main_arg4) := B2_of_ne m c main_arg4 (by decide)
    _ = B0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem B4_main_arg5 (c : Dev nD) : B4 m c (Proc.devRef .tc main_arg5) = m ((c : Thread nD τ).loc main_arg5) :=
  calc B4 m c (Proc.devRef .tc main_arg5)
    _ = B3 m c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg5) := B3_of_ne m c main_arg5 (by decide)
    _ = B1 m c (Proc.devRef .tc main_arg5) := (B2_arr m c 3).trans (((dat0 (E1 m) c).arrAt_in 3 rfl _).trans (A_eq0 (E1 m) c 3))
    _ = B0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem B4_main_arg6 (c : Dev nD) : B4 m c (Proc.devRef .tc main_arg6) = m ((c : Thread nD τ).loc main_arg6) :=
  calc B4 m c (Proc.devRef .tc main_arg6)
    _ = B3 m c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B2 m c (Proc.devRef .tc main_arg6) := B3_of_ne m c main_arg6 (by decide)
    _ = B1 m c (Proc.devRef .tc main_arg6) := B2_of_ne m c main_arg6 (by decide)
    _ = B0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and what rides along -/

abbrev admT : (p : Fin 2) → (pcfgs (F := F) p).Adm := fun p => (cfgs p).toPCfg_adm
/-- Each pipeline's proof data at its region's entry contents. -/
def pd : (p : Fin 2) → (c : Dev nD) → Dat τ (Elt F) Unit ℕ (UR sig nD τ) ℕ (Pipeline.pin (pcfgs (F := F)) admT p) c
  | ⟨0, _⟩ => fun c => dat0 (E1 m) c
  | ⟨1, _⟩ => fun c => dat1 (E2 m) c
abbrev 𝒱ₙ : Variants := Variants.none
abbrev Lₙ : GSem nD τ sig → Finset Unit := fun _ => ∅
abbrev lvₙ : GSem nD τ sig → Unit → ℕ := fun _ _ => 0
/-- Beside the buffers: the generator register at some state, and the core owing nothing. -/
abbrev Rider (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rider
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m c) ∗ ∃ r, prngReg c r)

/-! ## The regions as items -/

set_option backward.isDefEq.respectTransparency.types false in
/-- Region 0 as an item of @main: entered with every unscoped buffer at the boundary's contents, left with its
    arrays at what its write-backs leave and every other buffer as entered. Its arrays are split out of the unscoped
    buffers at entry and put back at exit; the generator register and the scoped rest pass through the invariant
    (the accumulator at anything before the first point, its named contents forgotten after the last); nothing owed. -/
def region0 : Pipeline.RegionSeg (pcfgs (F := F)) admT (pd m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lₙ lvₙ 0 fun _ _ => rfl
  pre c := iprop(StableHlo.held (c : Thread nD τ) (Pipeline.ucRefs τ sig) (B1 m c) ∗ Rider c)
  post c := iprop(StableHlo.held (c : Thread nD τ) (Pipeline.ucRefs τ sig) (B2 m c) ∗ Rider c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admT (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (admT (F := F) 0).1
          ∗ Pipeline.scopedRest (Pipeline.pin (pcfgs (F := F)) admT 0).spec c) : sProp 𝕄) ⊢ Pipeline.ΦA spec0 c := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄) ⊢ iprop((∃ r, prngReg c r) ∗ BI.emp
          ∗ Pipeline.scopedRest (Pipeline.pin (pcfgs (F := F)) admT 0).spec c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) admT (Ix := Unit) (Name := ℕ) (U := UR sig nD τ) (Lvl := ℕ)
      launch0.win launch0.arr_whole c (pd m) ((pd m 0 c).share_full fun _ => rfl)
      (E1 m c) (E2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as an item of @main: entered with every unscoped buffer at the boundary's contents, left with its
    arrays at what its write-backs leave and every other buffer as entered. Its arrays are split out of the unscoped
    buffers at entry and put back at exit; the generator register and the scoped rest pass through the invariant
    (the accumulator at anything before the first point, its named contents forgotten after the last); nothing owed. -/
def region1 : Pipeline.RegionSeg (pcfgs (F := F)) admT (pd m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ Lₙ lvₙ 1 fun _ _ => rfl
  pre c := iprop(StableHlo.held (c : Thread nD τ) (Pipeline.ucRefs τ sig) (B2 m c) ∗ Rider c)
  post c := iprop(StableHlo.held (c : Thread nD τ) (Pipeline.ucRefs τ sig) (B3 m c) ∗ Rider c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admT (pd m) launch1.win launch1.arr_whole c
      ((pd m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (admT (F := F) 1).1
          ∗ Pipeline.scopedRest (Pipeline.pin (pcfgs (F := F)) admT 1).spec c) : sProp 𝕄) ⊢ Pipeline.ΦA spec1 c := by
      unfold Pipeline.ΦA
      iintro ⟨Hp, -, Hr⟩
      isplitl [Hr]; · iexact Hr
      iexact Hp
    exact h.trans (hin1 (E2 m) c)
  hout c := by
    rw [Pipeline.ownSems0_none]
    have h : (Pipeline.ΦA spec1 c : sProp 𝕄) ⊢ iprop((∃ r, prngReg c r) ∗ BI.emp
          ∗ Pipeline.scopedRest (Pipeline.pin (pcfgs (F := F)) admT 1).spec c) := by
      unfold Pipeline.ΦA
      iintro ⟨Hr, Hp⟩
      isplitl [Hp]; · iexact Hp
      isplitr; · iempintro
      iexact Hr
    exact (hout1 (E2 m) c).trans h
  hexit c := by
    have hjoin := Pipeline.unscopedBufs_of_arrays (p := 1) (pcfgs (F := F)) admT (Ix := Unit) (Name := ℕ) (U := UR sig nD τ) (Lvl := ℕ)
      launch1.win launch1.arr_whole c (pd m) ((pd m 1 c).share_full fun _ => rfl)
      (E2 m c) (E3 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the run -/

abbrev items : List (Pipeline.Seg (pcfgs (F := F)) admT (pd m) () defs₀ 𝒱ₙ Lₙ lvₙ) :=
  [ .host (hostItem hostOps0 hostOps0_sub hostOps0_fresh (B0 m)),
    .region (region0 m),
    .region (region1 m),
    .host (hostItem hostOps2 hostOps2_sub hostOps2_fresh (B3 m)) ]
theorem main_run (c : Dev nD) : main (F := F) c = Pipeline.Seg.run (items m) := (main_chain c).trans (by chain_rfl)

variable (ρ : Dev nD → PrngReg)

set_option backward.isDefEq.respectTransparency.types false in
/-- Every weakly fair execution of @main from memory m with zero counters terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) admT (pd m) () cellOf_inj emb₁ defs₀ 𝒱ₙ Lₙ lvₙ m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rider c)) (Tₙ := Tend m)
    (hch := ⟨fun _ => .rfl, fun _ => .rfl, fun _ => .rfl, fun _ => .rfl, fun c => by
      show (iprop(StableHlo.held (c : Thread nD τ) (Pipeline.ucRefs τ sig) (B4 m c) ∗ Rider c) : sProp 𝕄)
        ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lₙ lvₙ fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c)⟩) (run_all m ρ)

/-- The run with the result named: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v4) = B4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v4 (by decide)),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c)⟩) (run_all m ρ)

end Cert.KernelIdeal.Fr

end
-- ==== Proof.Spec.lean ====
/-
  The mathematics both programs compute, over the extended reals, index by index.
  A batch row b of visual features is sent through two affine layers:
    hidden b h = (sum over k < 4096 of vfs b k * W1 h k) + b1 h,
    emb b e    = (sum over h < 2048 of hidden b h * W2 e h) + b2 e.
  A label row r (a positive label for b, or any of the 512 negatives) is scored against the embedding of b by the
  order-violation penalty
    score r (emb b) = - sqrt (sum over e < 512 of (max (r e - emb b e) 0) squared).
  The result holds, for each b, the positive score in column 0 and the 512 negative scores after it.
  The biases are taken as functions of their one index, so that the same definitions serve a bias stored as a
  vector and one stored as a one-row matrix.
-/
import Idealize.ShloMosaic.PureOps.Ideal
import Idealize.ShloMosaic.Lib.ValueIdx

noncomputable section

namespace Cert.Spec

open Idealize.ShloMosaic Idealize.ShloMosaic.ValueIdx

/-- The first affine layer at row b, unit h. -/
def hidden (vfs : (⟨2, ![256, 4096]⟩ : Shape).Idx → EReal) (w1 : (⟨2, ![2048, 4096]⟩ : Shape).Idx → EReal) (b1 : Fin 2048 → EReal)
    (b : Fin 256) (h : Fin 2048) : EReal :=
  (∑ k : Fin 4096, vfs (ix2 b k) * w1 (ix2 h k)) + b1 h

/-- The second affine layer (the embedding) at row b, coordinate e. -/
def emb (vfs : (⟨2, ![256, 4096]⟩ : Shape).Idx → EReal) (w1 : (⟨2, ![2048, 4096]⟩ : Shape).Idx → EReal) (b1 : Fin 2048 → EReal)
    (w2 : (⟨2, ![512, 2048]⟩ : Shape).Idx → EReal) (b2 : Fin 512 → EReal) (b : Fin 256) (e : Fin 512) : EReal :=
  (∑ h : Fin 2048, hidden vfs w1 b1 b h * w2 (ix2 e h)) + b2 e

/-- The squared positive part of a label coordinate's excess over an embedding coordinate. -/
def gap (r v : EReal) : EReal := max (r - v) 0 * max (r - v) 0

/-- The order-violation score of a label row against an embedding row. -/
def score (r : Fin 512 → EReal) (v : Fin 512 → EReal) : EReal :=
  -(Ideal.sqrt (∑ e : Fin 512, gap (r e) (v e)))

end Cert.Spec

end
-- ==== Proof.Ideal.Pay0Math.lean ====
/-
  Region 0's arithmetic over the extended reals, on the body's pure payload terms alone (no memory, no schedule).
  The accumulator starts at zero and receives, block after block, the product of a 256 x 1024 block of the features
  with the transpose of a 2048 x 1024 block of the first weight matrix; the four blocks tile the contraction axis of
  4096, so after the fourth update the accumulator is the whole product (a finite sum regrouped: no finiteness is
  needed, only that addition is commutative and associative). Adding the first bias, multiplying by the transposed
  second weight matrix and adding the second bias is the embedding; the positive score is zero minus the square
  root of the lane sum of squared positive parts, and zero minus x is the negation of x.
-/
import proofs.«118560_j28226525069938_1_alg».proof.Proof.Gen.KernelIdeal.Skeleton
import proofs.«118560_j28226525069938_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

/-! ## A sum over 4096 indices as four block sums -/

/-- A sum over a product range is the iterated sum over the blocks. -/
theorem sum_blocks {M : Type*} [AddCommMonoid M] (m n : ℕ) (f : Fin (m * n) → M) :
    ∑ k, f k = ∑ t : Fin m, ∑ j : Fin n, f (finProdFinEquiv (t, j)) := by
  rw [← Equiv.sum_comp finProdFinEquiv f, Fintype.sum_prod_type]

/-- The contraction axis of 4096 is four consecutive blocks of 1024. -/
theorem sum_four_blocks {M : Type*} [AddCommMonoid M] (f : Fin 4096 → M) :
    ∑ k, f k = ∑ t : Fin 4, ∑ j : Fin 1024, f ⟨1024 * t.val + j.val, by omega⟩ := by
  refine (sum_blocks 4 1024 f).trans ?_
  refine Finset.sum_congr rfl fun t _ => Finset.sum_congr rfl fun j _ => congrArg f (Fin.ext ?_)
  show j.val + 1024 * t.val = 1024 * t.val + j.val
  omega

/-! ## The first product read at an index -/

theorem lhs_mm1_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhs_mm1_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhs_mm1_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhs_mm1_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The product of a 256 x 1024 block with a 1024 x 2048 block into a cleared accumulator, at row b and column h. -/
theorem mm1_apply (a : FVec Ideal S256x1024 .bf16) (v : FVec Ideal S1024x2048 .bf16) (b : Fin 256) (h : Fin 2048) :
    FloatOps.matmul dot_S256x1024_S1024x2048_S256x2048_1_0_0_1_n_n none a v (constant (F := Ideal) S256x2048 .f32 0x00000000#32) (ix2 b h)
      = ∑ k : Fin 1024, a (ix2 b k) * v (ix2 k h) := by
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 b h) ((contrEquiv1 dot_S256x1024_S1024x2048_S256x2048_1_0_0_1_n_n 1024 rfl rfl).symm k) = ix2 b k := funext fun c => Fin.ext (by
    match c with
    | ⟨0, _⟩ => exact lhs_mm1_0 _ _
    | ⟨1, _⟩ => exact (lhs_mm1_1 _ _).trans hk)
  have er : dot_S256x1024_S1024x2048_S256x2048_1_0_0_1_n_n.rhsIdx (ix2 b h) ((contrEquiv1 dot_S256x1024_S1024x2048_S256x2048_1_0_0_1_n_n 1024 rfl rfl).symm k) = ix2 k h := funext fun c => Fin.ext (by
    match c with
    | ⟨0, _⟩ => exact (rhs_mm1_0 _ _).trans hk
    | ⟨1, _⟩ => exact rhs_mm1_1 _ _)
  rw [el, er]

/-- The transposed weight block at (k, h) is the block at (h, k). -/
theorem tr1_apply (v : FVec Ideal S2048x1024 .bf16) (k : Fin 1024) (h : Fin 2048) :
    transpose S1024x2048 [1, 0] v transposes_S2048x1024_p1_0_S1024x2048 (ix2 k h) = v (ix2 h k) :=
  transpose_apply [1, 0] v transposes_S2048x1024_p1_0_S1024x2048 (ix2 k h) (ix2 h k) (fun c => match c with
    | ⟨0, _⟩ => rfl
    | ⟨1, _⟩ => rfl)

/-- The cleared accumulator is zero everywhere. -/
theorem pay1_apply (j : S256x2048.Idx) : k0_pay1 (F := Ideal) j = 0 := by
  unfold k0_pay1
  rw [shapeCast_self]
  exact Ideal.ofBits_zero_f32

/-- One update: the accumulator plus the block product, the weight block read transposed. -/
theorem pay2_apply (x : S256x1024.Idx → EReal) (w : S2048x1024.Idx → EReal) (acc : S256x2048.Idx → EReal) (b : Fin 256) (h : Fin 2048) :
    k0_pay2 (F := Ideal) x w acc (ix2 b h) = acc (ix2 b h) + ∑ k : Fin 1024, x (ix2 b k) * w (ix2 h k) := by
  unfold k0_pay2
  rw [shapeCast_self]
  refine congrArg (acc (ix2 b h) + ·) ?_
  refine (mm1_apply _ _ b h).trans ?_
  refine Finset.sum_congr rfl fun k _ => ?_
  rw [tr1_apply]
  rfl

/-- The accumulator after the four blocks: four updates from the cleared accumulator. -/
def acc0 (x : Fin 4 → S256x1024.Idx → EReal) (w : Fin 4 → S2048x1024.Idx → EReal) : S256x2048.Idx → EReal :=
  k0_pay2 (F := Ideal) (x 3) (w 3) (k0_pay2 (F := Ideal) (x 2) (w 2) (k0_pay2 (F := Ideal) (x 1) (w 1) (k0_pay2 (F := Ideal) (x 0) (w 0) (k0_pay1 (F := Ideal)))))

/-- The accumulator after the four blocks is the whole product over the contraction axis of 4096. -/
theorem acc0_apply (X0 : S256x4096.Idx → EReal) (W1 : S2048x4096.Idx → EReal)
    (x : Fin 4 → S256x1024.Idx → EReal) (w : Fin 4 → S2048x1024.Idx → EReal)
    (hx : ∀ (t : Fin 4) (b : Fin 256) (k : Fin 1024), x t (ix2 b k) = X0 (ix2 b ⟨1024 * t.val + k.val, by omega⟩))
    (hw : ∀ (t : Fin 4) (h : Fin 2048) (k : Fin 1024), w t (ix2 h k) = W1 (ix2 h ⟨1024 * t.val + k.val, by omega⟩))
    (b : Fin 256) (h : Fin 2048) :
    acc0 x w (ix2 b h) = ∑ k : Fin 4096, X0 (ix2 b k) * W1 (ix2 h k) := by
  have hs : ∀ t : Fin 4, ∑ k : Fin 1024, x t (ix2 b k) * w t (ix2 h k)
      = ∑ j : Fin 1024, X0 (ix2 b ⟨1024 * t.val + j.val, by omega⟩) * W1 (ix2 h ⟨1024 * t.val + j.val, by omega⟩) :=
    fun t => Finset.sum_congr rfl fun k _ => by rw [hx, hw]
  unfold acc0
  rw [pay2_apply, pay2_apply, pay2_apply, pay2_apply, pay1_apply, zero_add, hs 0, hs 1, hs 2, hs 3,
    sum_four_blocks (fun k => X0 (ix2 b k) * W1 (ix2 h k)), Fin.sum_univ_four]

/-! ## The second product read at an index -/

theorem lhs_mm2_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhs_mm2_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhs_mm2_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhs_mm2_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- The product of a 256 x 2048 array with a 2048 x 512 array into a cleared accumulator, at row b and column e. -/
theorem mm2_apply (a : FVec Ideal S256x2048 .bf16) (v : FVec Ideal S2048x512 .bf16) (b : Fin 256) (e : Fin 512) :
    FloatOps.matmul dot_S256x2048_S2048x512_S256x512_1_0_0_1_n_n none a v (constant (F := Ideal) S256x512 .f32 0x00000000#32) (ix2 b e)
      = ∑ h : Fin 2048, a (ix2 b h) * v (ix2 h e) := by
  rw [Ideal.matmul_constant_zero_apply, ← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 b e) ((contrEquiv1 dot_S256x2048_S2048x512_S256x512_1_0_0_1_n_n 2048 rfl rfl).symm k) = ix2 b k := funext fun c => Fin.ext (by
    match c with
    | ⟨0, _⟩ => exact lhs_mm2_0 _ _
    | ⟨1, _⟩ => exact (lhs_mm2_1 _ _).trans hk)
  have er : dot_S256x2048_S2048x512_S256x512_1_0_0_1_n_n.rhsIdx (ix2 b e) ((contrEquiv1 dot_S256x2048_S2048x512_S256x512_1_0_0_1_n_n 2048 rfl rfl).symm k) = ix2 k e := funext fun c => Fin.ext (by
    match c with
    | ⟨0, _⟩ => exact (rhs_mm2_0 _ _).trans hk
    | ⟨1, _⟩ => exact rhs_mm2_1 _ _)
  rw [el, er]

/-- The transposed second weight matrix at (h, e) is the matrix at (e, h). -/
theorem tr2_apply (v : FVec Ideal S512x2048 .bf16) (h : Fin 2048) (e : Fin 512) :
    transpose S2048x512 [1, 0] v transposes_S512x2048_p1_0_S2048x512 (ix2 h e) = v (ix2 e h) :=
  transpose_apply [1, 0] v transposes_S512x2048_p1_0_S2048x512 (ix2 h e) (ix2 e h) (fun c => match c with
    | ⟨0, _⟩ => rfl
    | ⟨1, _⟩ => rfl)

/-- The embedding payload at (b, e): the rows of the accumulator plus the first bias, times the transposed second
    weight matrix, plus the second bias. -/
theorem pay3_apply (A : S256x2048.Idx → EReal) (B1 : S1x2048.Idx → EReal) (W2 : S512x2048.Idx → EReal) (B2 : S1x512.Idx → EReal)
    (b : Fin 256) (e : Fin 512) :
    k0_pay3 (F := Ideal) A B1 W2 B2 (ix2 b e)
      = (∑ h : Fin 2048, (A (ix2 b h) + B1 (ix2 0 h)) * W2 (ix2 e h)) + B2 (ix2 0 e) := by
  unfold k0_pay3
  rw [shapeCast_self, shapeCast_self]
  refine congrArg₂ (· + ·) ?_ ?_
  · refine (mm2_apply _ _ b e).trans ?_
    refine Finset.sum_congr rfl fun h _ => ?_
    rw [tr2_apply]
    refine congrArg (· * W2 (ix2 e h)) ?_
    refine congrArg (A (ix2 b h) + ·) ?_
    exact broadcastTo_1b_ab_apply B1 broadcasts_S1x2048_S256x2048 b h
  · exact broadcastTo_1b_ab_apply B2 broadcasts_S1x512_S256x512 b e

/-- The embedding payload over the four-block accumulator is the specification's embedding. -/
theorem pay3_emb (X0 : S256x4096.Idx → EReal) (W1 : S2048x4096.Idx → EReal)
    (x : Fin 4 → S256x1024.Idx → EReal) (w : Fin 4 → S2048x1024.Idx → EReal)
    (hx : ∀ (t : Fin 4) (b : Fin 256) (k : Fin 1024), x t (ix2 b k) = X0 (ix2 b ⟨1024 * t.val + k.val, by omega⟩))
    (hw : ∀ (t : Fin 4) (h : Fin 2048) (k : Fin 1024), w t (ix2 h k) = W1 (ix2 h ⟨1024 * t.val + k.val, by omega⟩))
    (B1 : S1x2048.Idx → EReal) (W2 : S512x2048.Idx → EReal) (B2 : S1x512.Idx → EReal) (b : Fin 256) (e : Fin 512) :
    k0_pay3 (F := Ideal) (acc0 x w) B1 W2 B2 (ix2 b e)
      = Cert.Spec.emb X0 W1 (fun h => B1 (ix2 0 h)) W2 (fun e' => B2 (ix2 0 e')) b e := by
  rw [pay3_apply]
  unfold Cert.Spec.emb Cert.Spec.hidden
  refine congrArg (· + B2 (ix2 0 e)) ?_
  refine Finset.sum_congr rfl fun h _ => ?_
  rw [acc0_apply X0 W1 x w hx hw b h]

/-! ## The positive score read at a row -/

/-- A vector of a entries cast to a column of a rows reads, at (i, 0), the entry i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The score payload at row b: zero minus the square root of the lane sum of the squared positive parts of the label
    row's excess over the embedding payload's row. -/
theorem pay4_apply (A : S256x2048.Idx → EReal) (B1 : S1x2048.Idx → EReal) (W2 : S512x2048.Idx → EReal) (B2 : S1x512.Idx → EReal)
    (P : S256x512.Idx → EReal) (b : Fin 256) :
    k0_pay4 (F := Ideal) A B1 W2 B2 P (ix2 b 0)
      = -(Ideal.sqrt (∑ e : Fin 512, Cert.Spec.gap (P (ix2 b e)) (k0_pay3 (F := Ideal) A B1 W2 B2 (ix2 b e)))) := by
  unfold k0_pay4
  rw [subf_apply, broadcast_apply]
  refine (congrArg (· - _) Ideal.ofBits_zero_f32).trans ?_
  rw [zero_sub]
  refine congrArg (fun z => -(Ideal.sqrt z)) ?_
  refine (shapeCast_a_a1_apply _ shapeCasts_S256_S256x1 b 0).trans ?_
  refine (Ideal.multiReduction_add_single _ _ reduces_S256x512_S256 _ _ (ix1 b)).trans ?_
  refine Finset.sum_congr rfl fun (e : Fin 512) _ => ?_
  have hl : reduces_S256x512_S256.lift (ix1 b) e = ix2 b e := funext fun c => Fin.ext (by
    match c with
    | ⟨0, _⟩ => rfl
    | ⟨1, _⟩ => rfl)
  refine (congrArg _ hl).trans ?_
  show max (P (ix2 b e) - k0_pay3 (F := Ideal) A B1 W2 B2 (ix2 b e)) (Ideal.ofBits .f32 0x00000000#32)
      * max (P (ix2 b e) - k0_pay3 (F := Ideal) A B1 W2 B2 (ix2 b e)) (Ideal.ofBits .f32 0x00000000#32) = _
  rw [Ideal.ofBits_zero_f32]
  rfl

/-- The positive-score payload over the four-block accumulator is the specification's score of the positive label. -/
theorem pay4_score (X0 : S256x4096.Idx → EReal) (W1 : S2048x4096.Idx → EReal)
    (x : Fin 4 → S256x1024.Idx → EReal) (w : Fin 4 → S2048x1024.Idx → EReal)
    (hx : ∀ (t : Fin 4) (b : Fin 256) (k : Fin 1024), x t (ix2 b k) = X0 (ix2 b ⟨1024 * t.val + k.val, by omega⟩))
    (hw : ∀ (t : Fin 4) (h : Fin 2048) (k : Fin 1024), w t (ix2 h k) = W1 (ix2 h ⟨1024 * t.val + k.val, by omega⟩))
    (B1 : S1x2048.Idx → EReal) (W2 : S512x2048.Idx → EReal) (B2 : S1x512.Idx → EReal) (P : S256x512.Idx → EReal) (b : Fin 256) :
    k0_pay4 (F := Ideal) (acc0 x w) B1 W2 B2 P (ix2 b 0)
      = Cert.Spec.score (fun e => P (ix2 b e)) (Cert.Spec.emb X0 W1 (fun h => B1 (ix2 0 h)) W2 (fun e' => B2 (ix2 0 e')) b) := by
  rw [pay4_apply]
  unfold Cert.Spec.score
  refine congrArg (fun z => -(Ideal.sqrt z)) ?_
  refine Finset.sum_congr rfl fun e _ => ?_
  rw [pay3_emb X0 W1 x w hx hw B1 W2 B2 b e]

end Cert.KernelIdeal.Val

end
-- ==== Proof.Ideal.Value0.lean ====
/-
  Region 0 read as values over the extended reals: after its four points the embedding array holds the second
  affine layer of the batch, and the positive-score array the order-violation score of each row's positive label
  against its embedding. The accumulator after point k holds the partial products of blocks 0..k of the
  contraction axis; the four blocks of 1024 make up the whole axis of 4096.
-/
import proofs.«118560_j28226525069938_1_alg».proof.Proof.Ideal.Region0Defs
import proofs.«118560_j28226525069938_1_alg».proof.Proof.Spec
import proofs.«118560_j28226525069938_1_alg».proof.Proof.Ideal.Pay0Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

section Pieces
variable {F : FTy → Type} [FloatOps F]

/-- The first block: the accumulator is cleared, then receives the block's partial product. -/
theorem soutA_eq (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) :
    sout0_A c i arg1 harg1 arg2 harg2 arg3 harg3 arg4 harg4 arg5 harg5 arg6 harg6 arg7 harg7 arg8 harg8 arg9 harg9 hc0 hc1 x0 x1 = k0_pay2 x0 x1 (k0_pay1 (F := F)) := by
  unfold sout0_A
  rw [View.read_writes_eq_canon _ _ _ (scover0_A c i arg1 harg1 arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S256x2048) hz, View.readCov_unit_zero (S := S256x2048) _ hz]
  simp only [View.readAt_eq_ld, harg1.read_unread, harg2.read_unread, View.ld_unit_zero (S := S256x1024) hz,
    View.ld_unit_zero (S := S2048x1024) hz]

/-- A middle block: its partial product is added onto what the accumulator held. -/
theorem soutB_eq (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) :
    sout0_B c i arg1 harg1 arg2 harg2 arg3 harg3 arg4 harg4 arg5 harg5 arg6 harg6 arg7 harg7 arg8 harg8 arg9 harg9 hc0 hc1 x0 x1 xs0 = k0_pay2 x0 x1 xs0 := by
  unfold sout0_B
  rw [View.read_writes_eq_canon _ _ _ (scover0_B c i arg1 harg1 arg2 harg2 arg3 harg3 arg4 harg4 arg5 harg5 arg6 harg6 arg7 harg7 arg8 harg8 arg9 harg9 hc0 hc1 x0 x1 xs0)]
  unfold kernelRun0_B
  dsimp only
  sl_unfold_words
  rw [View.canon_unit_zero hz]
  simp only [View.readAt_eq_ld, harg1.read_unread, harg2.read_unread, harg9.read_unread,
    View.ld_unit_zero (S := S256x1024) hz, View.ld_unit_zero (S := S2048x1024) hz, View.ld_unit_zero (S := S256x2048) hz]

/-- The last block: the accumulator receives the last partial product, -/
theorem soutC_eq (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) :
    sout0_C c i arg1 harg1 arg2 harg2 arg3 harg3 arg4 harg4 arg5 harg5 arg6 harg6 arg7 harg7 arg8 harg8 arg9 harg9 hc0 hc1 x0 x1 x2 x3 x4 x5 xs0 = k0_pay2 x0 x1 xs0 := by
  unfold sout0_C
  rw [View.read_writes_eq_canon _ _ _ (scover0_C c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg1.read_unread, harg2.read_unread, harg9.read_unread,
    View.ld_unit_zero (S := S256x1024) hz, View.ld_unit_zero (S := S2048x1024) hz, View.ld_unit_zero (S := S256x2048) hz]

/-- the embedding window the second affine layer of the finished accumulator, -/
theorem outC6_eq (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) :
    out0_C_6 c i arg1 harg1 arg2 harg2 arg3 harg3 arg4 harg4 arg5 harg5 arg6 harg6 arg7 harg7 arg8 harg8 arg9 harg9 hc0 hc1 x0 x1 x2 x3 x4 x5 xs0 = k0_pay3 (k0_pay2 x0 x1 xs0) x2 x3 x4 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg1.read_unread, harg2.read_unread, harg3.read_unread, harg4.read_unread,
    harg5.read_unread, harg9.read_unread, View.readCov_unit_zero (S := S256x2048) _ hz,
    View.ld_unit_zero (S := S256x1024) hz, View.ld_unit_zero (S := S2048x1024) hz, View.ld_unit_zero (S := S256x2048) hz,
    View.ld_unit_zero (S := S1x2048) hz, View.ld_unit_zero (S := S512x2048) hz, View.ld_unit_zero (S := S1x512) hz]

/-- and the positive-score window the score of the positive labels against it. -/
theorem outC7_eq (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) :
    out0_C_7 c i arg1 harg1 arg2 harg2 arg3 harg3 arg4 harg4 arg5 harg5 arg6 harg6 arg7 harg7 arg8 harg8 arg9 harg9 hc0 hc1 x0 x1 x2 x3 x4 x5 xs0 = k0_pay4 (k0_pay2 x0 x1 xs0) x2 x3 x4 x5 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg1.read_unread, harg2.read_unread, harg3.read_unread, harg4.read_unread,
    harg5.read_unread, harg6.read_unread, harg9.read_unread, View.readCov_unit_zero (S := S256x2048) _ hz,
    View.ld_unit_zero (S := S256x1024) hz, View.ld_unit_zero (S := S2048x1024) hz, View.ld_unit_zero (S := S256x2048) hz,
    View.ld_unit_zero (S := S1x2048) hz, View.ld_unit_zero (S := S512x2048) hz, View.ld_unit_zero (S := S1x512) hz,
    View.ld_unit_zero (S := S256x512) hz]

end Pieces

/-! The blocks the windows hold at a point, each at its literal type. -/
abbrev xblk (c : Dev nD) (t : Fin cfg0.N) : Vec Ideal S256x1024 .f32 := iblk0 V c 0 t
abbrev wblk (c : Dev nD) (t : Fin cfg0.N) : Vec Ideal S2048x1024 .f32 := iblk0 V c 1 t
abbrev b1blk (c : Dev nD) (t : Fin cfg0.N) : Vec Ideal S1x2048 .f32 := iblk0 V c 2 t
abbrev w2blk (c : Dev nD) (t : Fin cfg0.N) : Vec Ideal S512x2048 .f32 := iblk0 V c 3 t
abbrev b2blk (c : Dev nD) (t : Fin cfg0.N) : Vec Ideal S1x512 .f32 := iblk0 V c 4 t
abbrev pblk (c : Dev nD) (t : Fin cfg0.N) : Vec Ideal S256x512 .f32 := iblk0 V c 5 t

/-- The accumulator after point n: cleared and updated with block 0, then updated with each later block. -/
def accAt (c : Dev nD) : (n : ℕ) → n < cfg0.N → Vec Ideal S256x2048 .f32
  | 0, h => k0_pay2 (F := Ideal) (xblk V c ⟨0, h⟩) (wblk V c ⟨0, h⟩) (k0_pay1 (F := Ideal))
  | n + 1, h => k0_pay2 (F := Ideal) (xblk V c ⟨n + 1, h⟩) (wblk V c ⟨n + 1, h⟩) (accAt c n (Nat.lt_of_succ_lt h))

/-- What the accumulator holds after point n is that chain of updates, by induction on the point. -/
theorem scratch_eq (c : Dev nD) : ∀ (n : ℕ) (h : n < cfg0.N), (outsAt0 V c n h).2.2 = accAt V c n h
  | 0, h => by
    have h1 : ¬(⟨0, h⟩ : Fin cfg0.N).val % 4 = 3 := by dsimp only; omega
    rw [outsAt0_A V c ⟨0, h⟩ rfl h1]
    dsimp only
    exact soutA_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0 (Memref.isWhole_whole _) ((hcond0_0 ⟨0, h⟩).mpr rfl) (fun hh => h1 ((hcond0_1 ⟨0, h⟩).mp hh))
      (iblk0 V c 0 ⟨0, h⟩) (iblk0 V c 1 ⟨0, h⟩)
  | n + 1, h => by
    have hN : cfg0.N = 4 := N_0
    have h0 : ¬(⟨n + 1, h⟩ : Fin cfg0.N).val % 4 = 0 := by dsimp only; omega
    by_cases h1 : (⟨n + 1, h⟩ : Fin cfg0.N).val % 4 = 3
    · rw [outsAt0_C V c ⟨n + 1, h⟩ h0 h1]
      dsimp only
      refine (soutC_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0 (Memref.isWhole_whole _) (fun hh => h0 ((hcond0_0 ⟨n + 1, h⟩).mp hh)) ((hcond0_1 ⟨n + 1, h⟩).mpr h1)
        (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩)
        (outsAt0 V c n (Nat.lt_of_succ_lt h)).2.2).trans ?_
      exact congrArg (k0_pay2 (F := Ideal) (xblk V c ⟨n + 1, h⟩) (wblk V c ⟨n + 1, h⟩)) (scratch_eq c n (Nat.lt_of_succ_lt h))
    · rw [outsAt0_B V c ⟨n + 1, h⟩ h0 h1]
      dsimp only
      refine (soutB_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0 (Memref.isWhole_whole _) (fun hh => h0 ((hcond0_0 ⟨n + 1, h⟩).mp hh)) (fun hh => h1 ((hcond0_1 ⟨n + 1, h⟩).mp hh))
        (iblk0 V c 0 ⟨n + 1, h⟩) (iblk0 V c 1 ⟨n + 1, h⟩)
        (outsAt0 V c n (Nat.lt_of_succ_lt h)).2.2).trans ?_
      exact congrArg (k0_pay2 (F := Ideal) (xblk V c ⟨n + 1, h⟩) (wblk V c ⟨n + 1, h⟩)) (scratch_eq c n (Nat.lt_of_succ_lt h))

theorem lt2 : 2 < cfg0.N := by rw [show cfg0.N = 4 from N_0]; decide
theorem lt3 : 3 < cfg0.N := by rw [show cfg0.N = 4 from N_0]; decide

/-- Unfolding the chain at a later point. -/
theorem accAt_succ (c : Dev nD) (n : ℕ) (h : n + 1 < cfg0.N) :
    accAt V c (n + 1) h = k0_pay2 (F := Ideal) (xblk V c ⟨n + 1, h⟩) (wblk V c ⟨n + 1, h⟩) (accAt V c n (Nat.lt_of_succ_lt h)) := rfl

/-- The embedding window after the last point. -/
theorem out6_last (c : Dev nD) :
    (outsAt0 V c t0_3.val t0_3.isLt).1
      = k0_pay3 (F := Ideal) (accAt V c 3 lt3) (b1blk V c t0_3) (w2blk V c t0_3) (b2blk V c t0_3) := by
  have h0 : ¬t0_3.val % 4 = 0 := by decide
  have h1 : t0_3.val % 4 = 3 := by decide
  rw [outsAt0_C V c t0_3 h0 h1]
  dsimp only
  refine (outC6_eq (F := Ideal) c (grid0.coords t0_3) (ms0_0 t0_3) (hs0_0 t0_3) (ms0_1 t0_3) (hs0_1 t0_3) (ms0_2 t0_3) (hs0_2 t0_3) (ms0_3 t0_3) (hs0_3 t0_3) (ms0_4 t0_3) (hs0_4 t0_3) (ms0_5 t0_3) (hs0_5 t0_3) (ms0_6 t0_3) (hs0_6 t0_3) (ms0_7 t0_3) (hs0_7 t0_3) scM0 (Memref.isWhole_whole _) (fun hh => h0 ((hcond0_0 t0_3).mp hh)) ((hcond0_1 t0_3).mpr h1)
    (iblk0 V c 0 t0_3) (iblk0 V c 1 t0_3) (iblk0 V c 2 t0_3) (iblk0 V c 3 t0_3) (iblk0 V c 4 t0_3) (iblk0 V c 5 t0_3)
    (outsAt0 V c 2 lt2).2.2).trans ?_
  rw [accAt_succ V c 2 lt3]
  exact congrArg (fun a => k0_pay3 (F := Ideal) (k0_pay2 (F := Ideal) (xblk V c t0_3) (wblk V c t0_3) a) (b1blk V c t0_3) (w2blk V c t0_3) (b2blk V c t0_3))
    (scratch_eq V c 2 lt2)

/-- The positive-score window after the last point. -/
theorem out7_last (c : Dev nD) :
    (outsAt0 V c t0_3.val t0_3.isLt).2.1
      = k0_pay4 (F := Ideal) (accAt V c 3 lt3) (b1blk V c t0_3) (w2blk V c t0_3) (b2blk V c t0_3) (pblk V c t0_3) := by
  have h0 : ¬t0_3.val % 4 = 0 := by decide
  have h1 : t0_3.val % 4 = 3 := by decide
  rw [outsAt0_C V c t0_3 h0 h1]
  dsimp only
  refine (outC7_eq (F := Ideal) c (grid0.coords t0_3) (ms0_0 t0_3) (hs0_0 t0_3) (ms0_1 t0_3) (hs0_1 t0_3) (ms0_2 t0_3) (hs0_2 t0_3) (ms0_3 t0_3) (hs0_3 t0_3) (ms0_4 t0_3) (hs0_4 t0_3) (ms0_5 t0_3) (hs0_5 t0_3) (ms0_6 t0_3) (hs0_6 t0_3) (ms0_7 t0_3) (hs0_7 t0_3) scM0 (Memref.isWhole_whole _) (fun hh => h0 ((hcond0_0 t0_3).mp hh)) ((hcond0_1 t0_3).mpr h1)
    (iblk0 V c 0 t0_3) (iblk0 V c 1 t0_3) (iblk0 V c 2 t0_3) (iblk0 V c 3 t0_3) (iblk0 V c 4 t0_3) (iblk0 V c 5 t0_3)
    (outsAt0 V c 2 lt2).2.2).trans ?_
  rw [accAt_succ V c 2 lt3]
  exact congrArg (fun a => k0_pay4 (F := Ideal) (k0_pay2 (F := Ideal) (xblk V c t0_3) (wblk V c t0_3) a) (b1blk V c t0_3) (w2blk V c t0_3) (b2blk V c t0_3) (pblk V c t0_3))
    (scratch_eq V c 2 lt2)

/-! Each window's block at a point, read off the array the region is entered with. -/

/-- Block t of the features is columns 1024 t .. 1024 t + 1023 of the feature array. -/
theorem xblk_apply (c : Dev nD) (t : Fin cfg0.N) (p : Fin 256) (k : Fin 1024) (h : 1024 * t.val + k.val < 4096) :
    xblk V c t (ix2 p k) = (V c main_arg0 : S256x4096.Idx → EReal) (ix2 p ⟨1024 * t.val + k.val, h⟩) := by
  have hi : win0_0.index t 0 = 0 ∧ win0_0.index t 1 = t.val :=
    (by decide +kernel : ∀ t : Fin grid0.N, win0_0.index t 0 = 0 ∧ win0_0.index t 1 = t.val) t
  show V c main_arg0 (((cfg0.win 0).blk t).view.emb (ix2 p k)) = V c main_arg0 (ix2 p ⟨1024 * t.val + k.val, h⟩)
  refine congrArg (V c main_arg0) ?_
  funext a
  apply Fin.ext
  match a with
  | ⟨0, _⟩ => show win0_0.index t 0 * 256 + 1 * (p : ℕ) = (p : ℕ); rw [hi.1]; omega
  | ⟨1, _⟩ => show win0_0.index t 1 * 1024 + 1 * (k : ℕ) = 1024 * t.val + k.val; rw [hi.2]; omega

/-- Block t of the first weights is columns 1024 t .. 1024 t + 1023 of the first weight matrix. -/
theorem wblk_apply (c : Dev nD) (t : Fin cfg0.N) (p : Fin 2048) (k : Fin 1024) (h : 1024 * t.val + k.val < 4096) :
    wblk V c t (ix2 p k) = (V c main_arg3 : S2048x4096.Idx → EReal) (ix2 p ⟨1024 * t.val + k.val, h⟩) := by
  have hi : win0_1.index t 0 = 0 ∧ win0_1.index t 1 = t.val :=
    (by decide +kernel : ∀ t : Fin grid0.N, win0_1.index t 0 = 0 ∧ win0_1.index t 1 = t.val) t
  show V c main_arg3 (((cfg0.win 1).blk t).view.emb (ix2 p k)) = V c main_arg3 (ix2 p ⟨1024 * t.val + k.val, h⟩)
  refine congrArg (V c main_arg3) ?_
  funext a
  apply Fin.ext
  match a with
  | ⟨0, _⟩ => show win0_1.index t 0 * 2048 + 1 * (p : ℕ) = (p : ℕ); rw [hi.1]; omega
  | ⟨1, _⟩ => show win0_1.index t 1 * 1024 + 1 * (k : ℕ) = 1024 * t.val + k.val; rw [hi.2]; omega

/-- The first bias's one block is the whole row. -/
theorem b1blk_eq (c : Dev nD) (t : Fin cfg0.N) : b1blk V c t = (V c main_v0 : S1x2048.Idx → EReal) := by
  have hi : win0_2.index t 0 = 0 ∧ win0_2.index t 1 = 0 :=
    (by decide +kernel : ∀ t : Fin grid0.N, win0_2.index t 0 = 0 ∧ win0_2.index t 1 = 0) t
  funext y
  obtain ⟨p, q, rfl⟩ : ∃ (p : Fin 1) (q : Fin 2048), y = ix2 p q := ⟨y 0, y 1, eq_ix2 y⟩
  show V c main_v0 (((cfg0.win 2).blk t).view.emb (ix2 p q)) = V c main_v0 (ix2 p q)
  refine congrArg (V c main_v0) ?_
  funext a
  apply Fin.ext
  match a with
  | ⟨0, _⟩ => show win0_2.index t 0 * 1 + 1 * (p : ℕ) = (p : ℕ); rw [hi.1]; omega
  | ⟨1, _⟩ => show win0_2.index t 1 * 2048 + 1 * (q : ℕ) = (q : ℕ); rw [hi.2]; omega

/-- The second weight matrix's one block is the whole matrix. -/
theorem w2blk_eq (c : Dev nD) (t : Fin cfg0.N) : w2blk V c t = (V c main_arg5 : S512x2048.Idx → EReal) := by
  have hi : win0_3.index t 0 = 0 ∧ win0_3.index t 1 = 0 :=
    (by decide +kernel : ∀ t : Fin grid0.N, win0_3.index t 0 = 0 ∧ win0_3.index t 1 = 0) t
  funext y
  obtain ⟨p, q, rfl⟩ : ∃ (p : Fin 512) (q : Fin 2048), y = ix2 p q := ⟨y 0, y 1, eq_ix2 y⟩
  show V c main_arg5 (((cfg0.win 3).blk t).view.emb (ix2 p q)) = V c main_arg5 (ix2 p q)
  refine congrArg (V c main_arg5) ?_
  funext a
  apply Fin.ext
  match a with
  | ⟨0, _⟩ => show win0_3.index t 0 * 512 + 1 * (p : ℕ) = (p : ℕ); rw [hi.1]; omega
  | ⟨1, _⟩ => show win0_3.index t 1 * 2048 + 1 * (q : ℕ) = (q : ℕ); rw [hi.2]; omega

/-- The second bias's one block is the whole row. -/
theorem b2blk_eq (c : Dev nD) (t : Fin cfg0.N) : b2blk V c t = (V c main_v1 : S1x512.Idx → EReal) := by
  have hi : win0_4.index t 0 = 0 ∧ win0_4.index t 1 = 0 :=
    (by decide +kernel : ∀ t : Fin grid0.N, win0_4.index t 0 = 0 ∧ win0_4.index t 1 = 0) t
  funext y
  obtain ⟨p, q, rfl⟩ : ∃ (p : Fin 1) (q : Fin 512), y = ix2 p q := ⟨y 0, y 1, eq_ix2 y⟩
  show V c main_v1 (((cfg0.win 4).blk t).view.emb (ix2 p q)) = V c main_v1 (ix2 p q)
  refine congrArg (V c main_v1) ?_
  funext a
  apply Fin.ext
  match a with
  | ⟨0, _⟩ => show win0_4.index t 0 * 1 + 1 * (p : ℕ) = (p : ℕ); rw [hi.1]; omega
  | ⟨1, _⟩ => show win0_4.index t 1 * 512 + 1 * (q : ℕ) = (q : ℕ); rw [hi.2]; omega

/-- The positive labels' one block is the whole array. -/
theorem pblk_eq (c : Dev nD) (t : Fin cfg0.N) : pblk V c t = (V c main_arg1 : S256x512.Idx → EReal) := by
  have hi : win0_5.index t 0 = 0 ∧ win0_5.index t 1 = 0 :=
    (by decide +kernel : ∀ t : Fin grid0.N, win0_5.index t 0 = 0 ∧ win0_5.index t 1 = 0) t
  funext y
  obtain ⟨p, q, rfl⟩ : ∃ (p : Fin 256) (q : Fin 512), y = ix2 p q := ⟨y 0, y 1, eq_ix2 y⟩
  show V c main_arg1 (((cfg0.win 5).blk t).view.emb (ix2 p q)) = V c main_arg1 (ix2 p q)
  refine congrArg (V c main_arg1) ?_
  funext a
  apply Fin.ext
  match a with
  | ⟨0, _⟩ => show win0_5.index t 0 * 256 + 1 * (p : ℕ) = (p : ℕ); rw [hi.1]; omega
  | ⟨1, _⟩ => show win0_5.index t 1 * 512 + 1 * (q : ℕ) = (q : ℕ); rw [hi.2]; omega

/-! The one write-back of each output, at the last point, and the arrays it leaves. -/

/-- What the embedding array ends holding: the embedding payload over the accumulator after the last point. -/
abbrev res6 (c : Dev nD) : Buf (Elt Ideal) ((c : Thread nD τ).loc main_v2_0) :=
  k0_pay3 (F := Ideal) (accAt V c 3 lt3) (b1blk V c t0_3) (w2blk V c t0_3) (b2blk V c t0_3)

/-- What the positive-score array ends holding: the score payload over the same accumulator. -/
abbrev res7 (c : Dev nD) : Buf (Elt Ideal) ((c : Thread nD τ).loc main_v2_1) :=
  k0_pay4 (F := Ideal) (accAt V c 3 lt3) (b1blk V c t0_3) (w2blk V c t0_3) (b2blk V c t0_3) (pblk V c t0_3)

/-- The last point writes the embedding window back: block (0, 0) of the array, read through zero offsets, is the array. -/
theorem flushed6_eq (c : Dev nD) (t : Fin cfg0.N) (hf : (cfg0.win 6).flush t = true) :
    (dat0 V c).flushed 6 t = ((cfg0.win 6).blk t).view.read (Elt Ideal) (res6 V c) := by
  have hN : cfg0.N = 4 := N_0
  have h3 : t.val = 3 := by have := (flush0_6 t).mp hf; have := t.isLt; omega
  obtain rfl : t = t0_3 := Fin.ext h3
  show (cfg0.win 6).cut (grid0.coords t0_3) ((dat0 V c).after 6 t0_3) = _
  rw [after0_6, out6_last]
  have hz' : (fun a => win0_6.index t0_3 a * main_v2_0.ty.shape.size a) = fun _ => 0 := funext fun a => by fin_cases a <;> decide
  exact (Memref.read_access_unit_zero (Elt Ideal) main_v2_0 hz' (fun a => by rw [congrFun hz' a]; simp) (res6 V c)).symm

/-- Its one block is the whole array, so the array ends holding it. -/
theorem final6 (c : Dev nD) : (dat0 V c).arrAt 6 cfg0.N = res6 V c :=
  (dat0 V c).arrAt_eq_of_cover 6 (res6 V c) (flushed6_eq V c) fun i =>
    ⟨t0_3, (flush0_6 t0_3).mpr rfl, by
      show i ∈ ((View.whole main_v2_0).slice (win0_6.rect t0_3)).set
      rw [View.set_slice_whole, Rect.mem_set_unit]
      intro a
      have h0 : (i 0 : Nat) < 256 := (i 0).isLt
      have h1 : (i 1 : Nat) < 512 := (i 1).isLt
      match a with
      | ⟨0, _⟩ => show win0_6.index t0_3 0 * win0_6.size 0 ≤ (i 0 : Nat) ∧ (i 0 : Nat) < win0_6.index t0_3 0 * win0_6.size 0 + win0_6.xsize (grid0.coords t0_3) 0
                  rw [show win0_6.index t0_3 0 * win0_6.size 0 = 0 from by decide +kernel, show win0_6.xsize (grid0.coords t0_3) 0 = 256 from by decide +kernel]; omega
      | ⟨1, _⟩ => show win0_6.index t0_3 1 * win0_6.size 1 ≤ (i 1 : Nat) ∧ (i 1 : Nat) < win0_6.index t0_3 1 * win0_6.size 1 + win0_6.xsize (grid0.coords t0_3) 1
                  rw [show win0_6.index t0_3 1 * win0_6.size 1 = 0 from by decide +kernel, show win0_6.xsize (grid0.coords t0_3) 1 = 512 from by decide +kernel]; omega⟩

/-- The last point writes the positive-score window back, likewise. -/
theorem flushed7_eq (c : Dev nD) (t : Fin cfg0.N) (hf : (cfg0.win 7).flush t = true) :
    (dat0 V c).flushed 7 t = ((cfg0.win 7).blk t).view.read (Elt Ideal) (res7 V c) := by
  have hN : cfg0.N = 4 := N_0
  have h3 : t.val = 3 := by have := (flush0_7 t).mp hf; have := t.isLt; omega
  obtain rfl : t = t0_3 := Fin.ext h3
  show (cfg0.win 7).cut (grid0.coords t0_3) ((dat0 V c).after 7 t0_3) = _
  rw [after0_7, out7_last]
  have hz' : (fun a => win0_7.index t0_3 a * main_v2_1.ty.shape.size a) = fun _ => 0 := funext fun a => by fin_cases a <;> decide
  exact (Memref.read_access_unit_zero (Elt Ideal) main_v2_1 hz' (fun a => by rw [congrFun hz' a]; simp) (res7 V c)).symm

/-- Its one block is the whole array, so the array ends holding it. -/
theorem final7 (c : Dev nD) : (dat0 V c).arrAt 7 cfg0.N = res7 V c :=
  (dat0 V c).arrAt_eq_of_cover 7 (res7 V c) (flushed7_eq V c) fun i =>
    ⟨t0_3, (flush0_7 t0_3).mpr rfl, by
      show i ∈ ((View.whole main_v2_1).slice (win0_7.rect t0_3)).set
      rw [View.set_slice_whole, Rect.mem_set_unit]
      intro a
      have h0 : (i 0 : Nat) < 256 := (i 0).isLt
      have h1 : (i 1 : Nat) < 1 := (i 1).isLt
      match a with
      | ⟨0, _⟩ => show win0_7.index t0_3 0 * win0_7.size 0 ≤ (i 0 : Nat) ∧ (i 0 : Nat) < win0_7.index t0_3 0 * win0_7.size 0 + win0_7.xsize (grid0.coords t0_3) 0
                  rw [show win0_7.index t0_3 0 * win0_7.size 0 = 0 from by decide +kernel, show win0_7.xsize (grid0.coords t0_3) 0 = 256 from by decide +kernel]; omega
      | ⟨1, _⟩ => show win0_7.index t0_3 1 * win0_7.size 1 ≤ (i 1 : Nat) ∧ (i 1 : Nat) < win0_7.index t0_3 1 * win0_7.size 1 + win0_7.xsize (grid0.coords t0_3) 1
                  rw [show win0_7.index t0_3 1 * win0_7.size 1 = 0 from by decide +kernel, show win0_7.xsize (grid0.coords t0_3) 1 = 1 from by decide +kernel]; omega⟩

/-! The four blocks as families over the block number of the contraction axis, and the conclusion. -/

/-- Block number t of the contraction axis as a point of the grid. -/
abbrev pt (t : Fin 4) : Fin cfg0.N := ⟨t.val, by rw [show cfg0.N = 4 from N_0]; exact t.isLt⟩
/-- The four feature blocks and the four blocks of the first weights. -/
abbrev xs (c : Dev nD) : Fin 4 → S256x1024.Idx → EReal := fun t => xblk V c (pt t)
abbrev ws (c : Dev nD) : Fin 4 → S2048x1024.Idx → EReal := fun t => wblk V c (pt t)

/-- The accumulator after the last point is the four updates over the four blocks, from the cleared accumulator. -/
theorem acc_last (c : Dev nD) : accAt V c 3 lt3 = acc0 (xs V c) (ws V c) := rfl

/-- The embedding payload respects equal operands. -/
theorem pay3_congr (a a' : Vec Ideal S256x2048 .f32) (u u' : Vec Ideal S1x2048 .f32) (v v' : Vec Ideal S512x2048 .f32)
    (z z' : Vec Ideal S1x512 .f32) (ha : a = a') (hu : u = u') (hv : v = v') (hzz : z = z') :
    k0_pay3 (F := Ideal) a u v z = k0_pay3 (F := Ideal) a' u' v' z' := by
  rw [ha, hu, hv, hzz]

/-- The positive-score payload respects equal operands. -/
theorem pay4_congr (a a' : Vec Ideal S256x2048 .f32) (u u' : Vec Ideal S1x2048 .f32) (v v' : Vec Ideal S512x2048 .f32)
    (z z' : Vec Ideal S1x512 .f32) (r r' : Vec Ideal S256x512 .f32) (ha : a = a') (hu : u = u') (hv : v = v') (hzz : z = z') (hr : r = r') :
    k0_pay4 (F := Ideal) a u v z r = k0_pay4 (F := Ideal) a' u' v' z' r' := by
  rw [ha, hu, hv, hzz, hr]

/-- The embedding array after region 0, entry (b, e). -/
theorem final0_6 (c : Dev nD) (b : Fin 256) (e : Fin 512) :
    (dat0 (F := Ideal) V c).arrAt 6 cfg0.N (ix2 b e)
      = Cert.Spec.emb (V c main_arg0) (V c main_arg3) (fun h => (V c main_v0 : S1x2048.Idx → EReal) (ix2 0 h))
          (V c main_arg5) (fun e' => (V c main_v1 : S1x512.Idx → EReal) (ix2 0 e')) b e := by
  refine (congrFun (final6 V c) (ix2 b e)).trans ?_
  refine (congrFun (pay3_congr (accAt V c 3 lt3) (acc0 (xs V c) (ws V c)) (b1blk V c t0_3) (V c main_v0) (w2blk V c t0_3) (V c main_arg5)
    (b2blk V c t0_3) (V c main_v1) (acc_last V c) (b1blk_eq V c t0_3) (w2blk_eq V c t0_3) (b2blk_eq V c t0_3)) (ix2 b e)).trans ?_
  exact pay3_emb (V c main_arg0) (V c main_arg3) (xs V c) (ws V c) (fun t p k => xblk_apply V c (pt t) p k _)
    (fun t p k => wblk_apply V c (pt t) p k _) (V c main_v0) (V c main_arg5) (V c main_v1) b e

/-- The positive-score array after region 0, entry (b, 0). -/
theorem final0_7 (c : Dev nD) (b : Fin 256) :
    (dat0 (F := Ideal) V c).arrAt 7 cfg0.N (ix2 b 0)
      = Cert.Spec.score (fun e => (V c main_arg1 : S256x512.Idx → EReal) (ix2 b e))
          (Cert.Spec.emb (V c main_arg0) (V c main_arg3) (fun h => (V c main_v0 : S1x2048.Idx → EReal) (ix2 0 h))
            (V c main_arg5) (fun e' => (V c main_v1 : S1x512.Idx → EReal) (ix2 0 e')) b) := by
  refine (congrFun (final7 V c) (ix2 b 0)).trans ?_
  refine (congrFun (pay4_congr (accAt V c 3 lt3) (acc0 (xs V c) (ws V c)) (b1blk V c t0_3) (V c main_v0) (w2blk V c t0_3) (V c main_arg5)
    (b2blk V c t0_3) (V c main_v1) (pblk V c t0_3) (V c main_arg1) (acc_last V c) (b1blk_eq V c t0_3) (w2blk_eq V c t0_3) (b2blk_eq V c t0_3)
    (pblk_eq V c t0_3)) (ix2 b 0)).trans ?_
  exact pay4_score (V c main_arg0) (V c main_arg3) (xs V c) (ws V c) (fun t p k => xblk_apply V c (pt t) p k _)
    (fun t p k => wblk_apply V c (pt t) p k _) (V c main_v0) (V c main_arg5) (V c main_v1) (V c main_arg1) b

end Cert.KernelIdeal.Val

end
-- ==== Proof.Ideal.Pay1Math.lean ====
/-
  Region 1's arithmetic over the extended reals, on the body's pure payload terms alone (no memory, no schedule).
  For one column block of 128 negatives the accumulator starts at zero and receives, lane block after lane block,
  the sum over 128 lanes of the squared positive part of (negative label - embedding); the four lane blocks tile the
  embedding axis of 512, so after the fourth update the accumulator is the whole sum (a finite sum regrouped). The
  score is zero minus its square root, and zero minus x is the negation of x.
-/
import proofs.«118560_j28226525069938_1_alg».proof.Proof.Gen.KernelIdeal.Skeleton
import proofs.«118560_j28226525069938_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen
open Idealize.ShloMosaic Idealize.ShloMosaic.ValueIdx

/-- The accumulator after the four lane blocks: four updates from the cleared accumulator. -/
def acc1 (ve : Fin 4 → S256x128.Idx → EReal) (nl : Fin 4 → S128x128.Idx → EReal) : S256x128.Idx → EReal :=
  k1_pay2 (F := Ideal) (ve 3) (nl 3) (k1_pay2 (F := Ideal) (ve 2) (nl 2) (k1_pay2 (F := Ideal) (ve 1) (nl 1) (k1_pay2 (F := Ideal) (ve 0) (nl 0) (k1_pay1 (F := Ideal)))))

/-- The cleared accumulator is zero at every index. -/
theorem pay1_apply (i : S256x128.Idx) : k1_pay1 (F := Ideal) i = 0 := by
  unfold k1_pay1
  show shapeCast S256x128 (broadcast S256x128 (Scalar.ofBits (F := Ideal) .f32 0x00000000#32)) shapeCasts_S256x128_S256x128 i = 0
  rw [shapeCast_self]
  exact Ideal.ofBits_zero_f32

/-- The index a lane sum inserts: the result's (b, j) with lane l appended. -/
theorem lift_ix (b : Fin 256) (j : Fin 128) (l : Fin 128) :
    reduces_S256x128x128_S256x128.lift (ix2 b j) l = ix3 b j l := by
  funext c
  match c with
  | ⟨0, _⟩ => rfl
  | ⟨1, _⟩ => rfl
  | ⟨2, _⟩ => rfl

/-- The negatives block, given a leading unit axis and broadcast over the rows, reads (j, l) at (b, j, l). -/
theorem neg_bcast_apply (v5 : S128x128.Idx → EReal) (b : Fin 256) (j : Fin 128) (l : Fin 128) :
    broadcastTo S256x128x128 (shapeCast S1x128x128 v5 shapeCasts_S128x128_S1x128x128) broadcasts_S1x128x128_S256x128x128 (ix3 b j l)
      = v5 (ix2 j l) := by
  refine (broadcastTo_apply _ broadcasts_S1x128x128_S256x128x128 (ix3 b j l) (ix3 (0 : Fin 1) j l) fun a => ?_).trans ?_
  · match a with
    | ⟨0, _⟩ => rfl
    | ⟨1, _⟩ => rfl
    | ⟨2, _⟩ => rfl
  · exact shapeCast_ab_1ab_apply v5 shapeCasts_S128x128_S1x128x128 (0 : Fin 1) j l

/-- The embedding block, given a middle unit axis and broadcast over the negatives, reads (b, l) at (b, j, l). -/
theorem emb_bcast_apply (v3 : S256x128.Idx → EReal) (b : Fin 256) (j : Fin 128) (l : Fin 128) :
    broadcastTo S256x128x128 (shapeCast S256x1x128 v3 shapeCasts_S256x128_S256x1x128) broadcasts_S256x1x128_S256x128x128 (ix3 b j l)
      = v3 (ix2 b l) := by
  refine (broadcastTo_apply _ broadcasts_S256x1x128_S256x128x128 (ix3 b j l) (ix3 b (0 : Fin 1) l) fun a => ?_).trans ?_
  · match a with
    | ⟨0, _⟩ => rfl
    | ⟨1, _⟩ => rfl
    | ⟨2, _⟩ => rfl
  · refine shapeCast_apply v3 shapeCasts_S256x128_S256x1x128 (ix3 b (0 : Fin 1) l) (ix2 b l) ?_
    rw [Shape.rowMajor_val_three, Shape.rowMajor_val_two]
    show b.val * 128 + l.val = (b.val * 1 + 0) * 128 + l.val
    omega

/-- One accumulator update at an index: the old value plus the lane sum of the squared positive parts. -/
theorem pay2_apply (v3 : FVec Ideal S256x128 .f32) (v5 : FVec Ideal S128x128 .f32) (v13 : FVec Ideal S256x128 .f32)
    (b : Fin 256) (j : Fin 128) :
    k1_pay2 (F := Ideal) v3 v5 v13 (ix2 b j)
      = v13 (ix2 b j) + ∑ l : Fin 128, Cert.Spec.gap (v5 (ix2 j l)) (v3 (ix2 b l)) := by
  unfold k1_pay2
  dsimp only []
  rw [shapeCast_self, shapeCast_self, addf_apply]
  refine congrArg (v13 (ix2 b j) + ·) ?_
  refine (Ideal.multiReduction_add_single _ _ reduces_S256x128x128_S256x128 _ _ (ix2 b j)).trans ?_
  refine Finset.sum_congr rfl fun (l : Fin 128) _ => ?_
  rw [lift_ix b j l, mulf_apply, maximumf_apply, subf_apply, broadcast_apply, neg_bcast_apply, emb_bcast_apply]
  show max (v5 (ix2 j l) - v3 (ix2 b l)) (Ideal.ofBits .f32 0x00000000#32) * max (v5 (ix2 j l) - v3 (ix2 b l)) (Ideal.ofBits .f32 0x00000000#32) = _
  rw [Ideal.ofBits_zero_f32]
  rfl

/-- The score payload at an index: the negated square root of the accumulator there. -/
theorem pay3_apply (v23 : FVec Ideal S256x128 .f32) (i : S256x128.Idx) :
    k1_pay3 (F := Ideal) v23 i = -(Ideal.sqrt (v23 i)) := by
  unfold k1_pay3
  rw [subf_apply, broadcast_apply]
  show Ideal.ofBits .f32 0x00000000#32 - Ideal.sqrt (v23 i) = _
  rw [Ideal.ofBits_zero_f32, zero_sub]

/-- A sum over 512 coordinates is the sum over four blocks of 128: addition is commutative and associative. -/
theorem sum_four_blocks {M : Type*} [AddCommMonoid M] (f : Fin 512 → M) :
    ∑ k : Fin 512, f k = ∑ t : Fin 4, ∑ l : Fin 128, f ⟨128 * t.val + l.val, by omega⟩ := by
  rw [← Fintype.sum_prod_type (f := fun p : Fin 4 × Fin 128 => f ⟨128 * p.1.val + p.2.val, by omega⟩)]
  refine (Equiv.sum_comp (finProdFinEquiv (m := 4) (n := 128)) f).symm.trans ?_
  refine Finset.sum_congr rfl fun p _ => congrArg f (Fin.ext ?_)
  show p.2.val + 128 * p.1.val = 128 * p.1.val + p.2.val
  omega

/-- The score payload over the four-lane-block accumulator is the specification's score of negative label
    128 q + j against embedding row b. -/
theorem pay3_score (E : S256x512.Idx → EReal) (NL : S512x512.Idx → EReal) (q : Fin 4)
    (ve : Fin 4 → S256x128.Idx → EReal) (nl : Fin 4 → S128x128.Idx → EReal)
    (hve : ∀ (d : Fin 4) (b : Fin 256) (l : Fin 128), ve d (ix2 b l) = E (ix2 b ⟨128 * d.val + l.val, by omega⟩))
    (hnl : ∀ (d : Fin 4) (j : Fin 128) (l : Fin 128), nl d (ix2 j l) = NL (ix2 ⟨128 * q.val + j.val, by omega⟩ ⟨128 * d.val + l.val, by omega⟩))
    (b : Fin 256) (j : Fin 128) :
    k1_pay3 (F := Ideal) (acc1 ve nl) (ix2 b j)
      = Cert.Spec.score (fun e => NL (ix2 ⟨128 * q.val + j.val, by omega⟩ e)) (fun e => E (ix2 b e)) := by
  rw [pay3_apply]
  unfold Cert.Spec.score
  refine congrArg (fun x => -(Ideal.sqrt x)) ?_
  have hs : ∀ d : Fin 4, ∑ l : Fin 128, Cert.Spec.gap (nl d (ix2 j l)) (ve d (ix2 b l))
      = ∑ l : Fin 128, Cert.Spec.gap (NL (ix2 ⟨128 * q.val + j.val, by omega⟩ ⟨128 * d.val + l.val, by omega⟩))
          (E (ix2 b ⟨128 * d.val + l.val, by omega⟩)) :=
    fun d => Finset.sum_congr rfl fun l _ => by rw [hve, hnl]
  unfold acc1
  rw [pay2_apply, pay2_apply, pay2_apply, pay2_apply, pay1_apply, hs 0, hs 1, hs 2, hs 3, sum_four_blocks,
    Fin.sum_univ_four, zero_add]

end Cert.KernelIdeal.Val1

end
-- ==== Proof.Ideal.Value1.lean ====
/-
  Region 1 read as values over the extended reals: after its sixteen points the negative-score array holds, at
  (b, n), the order-violation score of negative label n against the embedding row b the region was entered with.
  Column block n is written at the last lane block (d = 3) of its row of the grid, from the accumulator, which by
  then holds the four lane blocks' sums: 4 x 128 lanes make up the embedding axis of 512.
-/
import proofs.«118560_j28226525069938_1_alg».proof.Proof.Ideal.Region1Defs
import proofs.«118560_j28226525069938_1_alg».proof.Proof.Spec
import proofs.«118560_j28226525069938_1_alg».proof.Proof.Ideal.Pay1Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

section Pieces
variable {F : FTy → Type} [FloatOps F]

theorem hz : (![0, 0] : Fin 2 → Nat) = fun _ => 0 := funext fun a => by fin_cases a <;> rfl

/-- A middle lane block: the accumulator receives the update of what it held. -/
theorem soutB_eq (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : ¬cond1_1 i)
    (x0 : Vec F S256x128 .f32) (x1 : Vec F S128x128 .f32) (xs0 : Vec F S256x128 .f32) :
    sout1_B c i arg2 harg2 arg3 harg3 arg4 harg4 arg5 harg5 hc0 hc1 x0 x1 xs0 = k1_pay2 x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  sl_unfold_words
  rw [View.canon_unit_zero (S := S256x128) hz]
  simp only [View.readAt_eq_ld, harg2.read_unread, harg3.read_unread, harg5.read_unread, View.ld_unit_zero (S := S256x128) hz, View.ld_unit_zero (S := S128x128) hz]

/-- The first lane block: the accumulator is cleared, then updated. -/
theorem soutA_eq (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : cond1_0 i) (hc1 : ¬cond1_1 i)
    (x0 : Vec F S256x128 .f32) (x1 : Vec F S128x128 .f32) :
    sout1_A c i arg2 harg2 arg3 harg3 arg4 harg4 arg5 harg5 hc0 hc1 x0 x1 = k1_pay2 x0 x1 (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S256x128) hz, View.readCov_unit_zero (S := S256x128) _ hz]
  simp only [View.readAt_eq_ld, harg2.read_unread, harg3.read_unread, harg5.read_unread, View.ld_unit_zero (S := S256x128) hz, View.ld_unit_zero (S := S128x128) hz]

/-- The last lane block: the accumulator receives the last update. -/
theorem soutC_eq (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) :
    sout1_C c i arg2 harg2 arg3 harg3 arg4 harg4 arg5 harg5 hc0 hc1 x0 x1 xs0 = k1_pay2 x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero (S := S256x128) hz]
  simp only [View.readAt_eq_ld, harg2.read_unread, harg3.read_unread, harg5.read_unread, View.ld_unit_zero (S := S256x128) hz, View.ld_unit_zero (S := S128x128) hz]

/-- The last lane block: the output block receives the scores of the updated accumulator. -/
theorem outC_eq (c : Dev nD) (i : grid1.Coords) (arg2 : Memref sig .tc .vmem S256x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S256x128 .f32) (harg5 : arg5.IsWhole) (hc0 : ¬cond1_0 i) (hc1 : cond1_1 i)
    (x0 : Vec F S256x128 .f32) (x1 : Vec F S128x128 .f32) (xs0 : Vec F S256x128 .f32) :
    out1_C_2 c i arg2 harg2 arg3 harg3 arg4 harg4 arg5 harg5 hc0 hc1 x0 x1 xs0 = k1_pay3 (k1_pay2 x0 x1 xs0) := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero (S := S256x128) hz, View.readCov_unit_zero (S := S256x128) _ hz]
  simp only [View.readAt_eq_ld, harg2.read_unread, harg3.read_unread, harg5.read_unread, View.ld_unit_zero (S := S256x128) hz, View.ld_unit_zero (S := S128x128) hz]

end Pieces

variable (V : (c : Dev nD) → (b : Ref sig .tc) → Buf (Elt Ideal) ((c : Thread nD τ).loc b))

/-! ## The accumulator along one row of the grid -/

/-- The embedding window's block at a point: all 256 rows, one block of 128 lanes. -/
abbrev eblk (c : Dev nD) (t : Fin cfg1.N) : Vec Ideal S256x128 .f32 := iblk1 V c 0 t
/-- The negative-label window's block at a point: 128 labels, one block of 128 lanes. -/
abbrev nblk (c : Dev nD) (t : Fin cfg1.N) : Vec Ideal S128x128 .f32 := iblk1 V c 1 t

theorem N1 : cfg1.N = 16 := N_1

/-- The same point, however its position and bound are written. -/
theorem outsAt1_of_eq (c : Dev nD) (n n' : ℕ) (h : n < cfg1.N) (h' : n' < cfg1.N) (e : n = n') :
    outsAt1 V c n h = outsAt1 V c n' h' := by
  subst e; rfl

/-- At a first lane block the accumulator holds the update of the cleared accumulator. -/
theorem scr_A (c : Dev nD) (t : Fin cfg1.N) (h0 : t.val % 4 = 0) :
    (outsAt1 V c t.val t.isLt).2 = k1_pay2 (eblk V c t) (nblk V c t) (k1_pay1 (F := Ideal)) := by
  have h1 : ¬t.val % 4 = 3 := by omega
  rw [outsAt1_A V c t h0 h1]
  dsimp only
  exact soutA_eq (F := Ideal) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)

/-- At a middle lane block it holds the update of what the point before left. -/
theorem scr_B (c : Dev nD) (t t' : Fin cfg1.N) (ht : t'.val + 1 = t.val) (h0 : ¬t.val % 4 = 0) (h1 : ¬t.val % 4 = 3) :
    (outsAt1 V c t.val t.isLt).2 = k1_pay2 (eblk V c t) (nblk V c t) (outsAt1 V c t'.val t'.isLt).2 := by
  have e : outsAt1 V c (t.val - 1) (Nat.lt_of_le_of_lt (Nat.sub_le _ _) t.isLt) = outsAt1 V c t'.val t'.isLt :=
    outsAt1_of_eq V c _ _ _ _ (by omega)
  rw [outsAt1_B V c t h0 h1]
  dsimp only
  rw [e]
  exact soutB_eq (F := Ideal) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c t'.val t'.isLt).2

/-- At a last lane block the output block holds the scores of the update of what the point before left. -/
theorem out_C (c : Dev nD) (t t' : Fin cfg1.N) (ht : t'.val + 1 = t.val) (h0 : ¬t.val % 4 = 0) (h1 : t.val % 4 = 3) :
    (outsAt1 V c t.val t.isLt).1 = k1_pay3 (k1_pay2 (eblk V c t) (nblk V c t) (outsAt1 V c t'.val t'.isLt).2) := by
  have e : outsAt1 V c (t.val - 1) (Nat.lt_of_le_of_lt (Nat.sub_le _ _) t.isLt) = outsAt1 V c t'.val t'.isLt :=
    outsAt1_of_eq V c _ _ _ _ (by omega)
  rw [outsAt1_C V c t h0 h1]
  dsimp only
  rw [e]
  exact outC_eq (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c t'.val t'.isLt).2

/-- Point (q, d) of the grid: column block q of the negatives, lane block d of the embedding axis. -/
def pt (q d : Fin 4) : Fin cfg1.N :=
  ⟨4 * q.val + d.val, by have := q.isLt; have := d.isLt; show 4 * q.val + d.val < grid1.N; rw [N_1]; omega⟩

theorem pt_val (q d : Fin 4) : (pt q d).val = 4 * q.val + d.val := rfl

/-- At the last lane block of row q the output block holds the scores of the accumulator after the four updates
    of the row, from the cleared accumulator. -/
theorem row_scores (c : Dev nD) (q : Fin 4) :
    (outsAt1 V c (pt q 3).val (pt q 3).isLt).1
      = k1_pay3 (F := Ideal) (acc1 (fun d => eblk V c (pt q d)) (fun d => nblk V c (pt q d))) := by
  have hq := q.isLt
  have v0 : (pt q 0).val = 4 * q.val := rfl
  have v1 : (pt q 1).val = 4 * q.val + 1 := rfl
  have v2 : (pt q 2).val = 4 * q.val + 2 := rfl
  have v3 : (pt q 3).val = 4 * q.val + 3 := rfl
  rw [out_C V c (pt q 3) (pt q 2) (by omega) (by omega) (by omega),
    scr_B V c (pt q 2) (pt q 1) (by omega) (by omega) (by omega),
    scr_B V c (pt q 1) (pt q 0) (by omega) (by omega) (by omega),
    scr_A V c (pt q 0) (by omega)]
  unfold acc1
  rfl

/-! ## The blocks as parts of the arrays -/

/-- Where the three windows' blocks sit, decided over the grid: at point t = 4 q + d the embedding block is lane
    block d, the label block is (q, d), the score block is column block q. -/
theorem idx_facts : ∀ t : Fin cfg1.N,
    win1_0.index t (0 : Fin 2) = 0 ∧ win1_0.index t (1 : Fin 2) = t.val % 4
    ∧ win1_1.index t (0 : Fin 2) = t.val / 4 ∧ win1_1.index t (1 : Fin 2) = t.val % 4
    ∧ win1_2.index t (0 : Fin 2) = 0 ∧ win1_2.index t (1 : Fin 2) = t.val / 4 :=
  (by decide +kernel : ∀ t : Fin grid1.N, _)

/-- The embedding block at point (q, d), entry (b, l): the embedding array at (b, 128 d + l). -/
theorem eblk_apply (c : Dev nD) (q d : Fin 4) (b : Fin 256) (l : Fin 128) :
    eblk V c (pt q d) (ix2 b l)
      = (V c main_v2_0 : S256x512.Idx → EReal) (ix2 b ⟨128 * d.val + l.val, by have := d.isLt; have := l.isLt; omega⟩) := by
  have hq := q.isLt
  have hd := d.isLt
  obtain ⟨e0, e1, -, -, -, -⟩ := idx_facts (pt q d)
  rw [pt_val] at e1
  show V c main_v2_0 (((cfg1.win 0).blk (pt q d)).view.emb (ix2 b l)) = _
  refine congrArg _ (funext fun a => Fin.ext ?_)
  match a with
  | ⟨0, _⟩ => show win1_0.index (pt q d) 0 * 256 + 1 * b.val = b.val; rw [e0]; omega
  | ⟨1, _⟩ => show win1_0.index (pt q d) 1 * 128 + 1 * l.val = 128 * d.val + l.val; rw [e1]; omega

/-- The label block at point (q, d), entry (j, l): the label array at (128 q + j, 128 d + l). -/
theorem nblk_apply (c : Dev nD) (q d : Fin 4) (j : Fin 128) (l : Fin 128) :
    nblk V c (pt q d) (ix2 j l)
      = (V c main_arg2 : S512x512.Idx → EReal) (ix2 ⟨128 * q.val + j.val, by have := q.isLt; have := j.isLt; omega⟩ ⟨128 * d.val + l.val, by have := d.isLt; have := l.isLt; omega⟩) := by
  have hq := q.isLt
  have hd := d.isLt
  obtain ⟨-, -, e0, e1, -, -⟩ := idx_facts (pt q d)
  rw [pt_val] at e0 e1
  show V c main_arg2 (((cfg1.win 1).blk (pt q d)).view.emb (ix2 j l)) = _
  refine congrArg _ (funext fun a => Fin.ext ?_)
  match a with
  | ⟨0, _⟩ => show win1_1.index (pt q d) 0 * 128 + 1 * j.val = 128 * q.val + j.val; rw [e0]; omega
  | ⟨1, _⟩ => show win1_1.index (pt q d) 1 * 128 + 1 * l.val = 128 * d.val + l.val; rw [e1]; omega

/-! ## The score array -/

/-- The scores as one function of the two arrays: entry (b, n) is the score of negative label n against embedding row b. -/
def scores (c : Dev nD) : S256x512.Idx → EReal := fun i =>
  Cert.Spec.score (fun e => (V c main_arg2 : S512x512.Idx → EReal) (ix2 (⟨(i 1).val, idx2_lt1 i⟩ : Fin 512) e))
    (fun e => (V c main_v2_0 : S256x512.Idx → EReal) (ix2 (⟨(i 0).val, idx2_lt0 i⟩ : Fin 256) e))

/-- The score block of point (q, 3), entry (b, l), sits at (b, 128 q + l) of the score array. -/
theorem blk2_emb (q : Fin 4) (b : Fin 256) (l : Fin 128) :
    ((cfg1.win 2).blk (pt q 3)).view.emb (ix2 b l)
      = (ix2 b ⟨128 * q.val + l.val, by have := q.isLt; have := l.isLt; omega⟩ : S256x512.Idx) := by
  have hq := q.isLt
  obtain ⟨-, -, -, -, e0, e1⟩ := idx_facts (pt q 3)
  have v3 : (pt q 3).val = 4 * q.val + 3 := rfl
  rw [v3] at e1
  refine funext fun a => Fin.ext ?_
  match a with
  | ⟨0, _⟩ => show win1_2.index (pt q 3) 0 * 256 + 1 * b.val = b.val; rw [e0]; omega
  | ⟨1, _⟩ => show win1_2.index (pt q 3) 1 * 128 + 1 * l.val = 128 * q.val + l.val; rw [e1]; omega

/-- What a flushing point writes back is its block of the scores. -/
theorem flushed_eq (c : Dev nD) (t : Fin cfg1.N) (hf : (cfg1.win 2).flush t = true) :
    (dat1 (F := Ideal) V c).flushed 2 t = ((cfg1.win 2).blk t).view.read (Elt Ideal) (scores V c) := by
  have h3 : t.val % 4 = 3 := (flush1_2 t).mp hf
  have hN := N1
  obtain ⟨q, rfl⟩ : ∃ q : Fin 4, t = pt q 3 :=
    ⟨⟨t.val / 4, by have := t.isLt; omega⟩, Fin.ext (by show t.val = 4 * (t.val / 4) + 3; omega)⟩
  show (cfg1.win 2).cut (grid1.coords (pt q 3)) ((dat1 V c).after 2 (pt q 3)) = _
  rw [after1_2, row_scores]
  funext j
  obtain ⟨b, l, rfl⟩ : ∃ (b : Fin 256) (l : Fin 128), j = ix2 b l := ⟨j 0, j 1, eq_ix2 j⟩
  show k1_pay3 (F := Ideal) (acc1 (fun d => eblk V c (pt q d)) (fun d => nblk V c (pt q d))) (ix2 b l)
    = scores V c (((cfg1.win 2).blk (pt q 3)).view.emb (ix2 b l))
  rw [blk2_emb q b l]
  exact pay3_score (V c main_v2_0) (V c main_arg2) q (fun d => eblk V c (pt q d)) (fun d => nblk V c (pt q d))
    (fun d b l => eblk_apply V c q d b l) (fun d j l => nblk_apply V c q d j l) b l

/-- An entry of the score array is in a point's block when each coordinate is in the block's range. -/
theorem mem_blk2 (t : Fin cfg1.N) (i : S256x512.Idx) :
    i ∈ ((cfg1.win 2).blk t).view.set
      ↔ ∀ a : Fin 2, win1_2.index t a * S256x128.size a ≤ (i a).val ∧ (i a).val < win1_2.index t a * S256x128.size a + S256x128.size a := by
  show i ∈ ((View.whole main_v3).slice (win1_2.rect t)).set ↔ _
  rw [View.set_slice_whole, Rect.mem_set_unit]
  exact Iff.rfl

/-- The four flushed blocks tile the score array: entry (b, n) is in the block of the last point of row n / 128. -/
theorem cover (i : S256x512.Idx) :
    ∃ t : Fin cfg1.N, (cfg1.win 2).flush t = true ∧ i ∈ ((cfg1.win 2).blk t).view.set := by
  have h0 : (i 0).val < 256 := idx2_lt0 i
  have h1 : (i 1).val < 512 := idx2_lt1 i
  have hq : (i 1).val / 128 < 4 := by omega
  have v3 : (pt ⟨(i 1).val / 128, hq⟩ 3).val = 4 * ((i 1).val / 128) + 3 := rfl
  obtain ⟨-, -, -, -, e0, e1⟩ := idx_facts (pt ⟨(i 1).val / 128, hq⟩ 3)
  rw [v3] at e1
  refine ⟨pt ⟨(i 1).val / 128, hq⟩ 3, (flush1_2 _).mpr (by rw [v3]; omega), ?_⟩
  rw [mem_blk2]
  intro a
  match a with
  | ⟨0, _⟩ => show win1_2.index (pt ⟨(i 1).val / 128, hq⟩ 3) 0 * 256 ≤ (i 0).val ∧ (i 0).val < win1_2.index (pt ⟨(i 1).val / 128, hq⟩ 3) 0 * 256 + 256; rw [e0]; omega
  | ⟨1, _⟩ => show win1_2.index (pt ⟨(i 1).val / 128, hq⟩ 3) 1 * 128 ≤ (i 1).val ∧ (i 1).val < win1_2.index (pt ⟨(i 1).val / 128, hq⟩ 3) 1 * 128 + 128; rw [e1]; omega

/-- So the score array ends holding the scores. -/
theorem final_scores (c : Dev nD) : (dat1 (F := Ideal) V c).arrAt 2 cfg1.N = scores V c :=
  (dat1 (F := Ideal) V c).arrAt_eq_of_cover 2 (scores V c) (flushed_eq V c) cover

/-- The negative-score array after region 1, entry (b, n). -/
theorem final1_2 (c : Dev nD) (b : Fin 256) (n : Fin 512) :
    (dat1 (F := Ideal) V c).arrAt 2 cfg1.N (ix2 b n)
      = Cert.Spec.score (fun e => (V c main_arg2 : S512x512.Idx → EReal) (ix2 n e))
          (fun e => (V c main_v2_0 : S256x512.Idx → EReal) (ix2 b e)) := by
  rw [final_scores V c]
  rfl

end Cert.KernelIdeal.Val1

end
-- ==== Proof.RefSpec.lean ====
/-
  The reference's stages read as the specification, index by index over the extended reals: its two dot products
  with the transposed weights and the broadcast biases are the two affine layers; relu, square, sum over the
  embedding axis, square root and negation are the order-violation score.
-/
import proofs.«118560_j28226525069938_1_alg».proof.Proof.Gen.ReferenceIdeal.Read
import proofs.«118560_j28226525069938_1_alg».proof.Proof.Spec
import Idealize.ShloMosaic.Lib.ValueIdx
import Idealize.ShloMosaic.PureOps.Ideal.Laws

noncomputable section

namespace Cert.RefSpec

open Cert.ReferenceIdeal Cert.ReferenceIdeal.Gen Cert.ReferenceIdeal.Read
open Idealize.ShloMosaic Idealize.ShloMosaic.ValueIdx

/-! ## The composed index maps, at an index given by its coordinates -/

/-- The first layer's left operand is read at row b, column k. -/
theorem lidx1 (b : Fin 256) (h : Fin 2048) (k : Fin 4096) : lidx_main_v1 (ix2 b h) k = ix2 b k := by
  funext a; match a with | ⟨0, _⟩ => rfl | ⟨1, _⟩ => rfl
/-- The first layer's right operand (the transposed weight) is read at row k, column h. -/
theorem ridx1 (b : Fin 256) (h : Fin 2048) (k : Fin 4096) : ridx_main_v1 (ix2 b h) k = ix2 k h := by
  funext a; match a with | ⟨0, _⟩ => rfl | ⟨1, _⟩ => rfl
/-- The transposed first weight at (k, h) is the weight at (h, k). -/
theorem idx0 (k : Fin 4096) (h : Fin 2048) : idx_main_v0 (ix2 k h) = ix2 h k := by
  funext a; match a with | ⟨0, _⟩ => rfl | ⟨1, _⟩ => rfl
/-- The first bias broadcast over rows is read at (0, h). -/
theorem idx3 (b : Fin 256) (h : Fin 2048) : idx_main_v3 (ix2 b h) = ix2 (0 : Fin 1) h := by
  funext a; match a with | ⟨0, _⟩ => rfl | ⟨1, _⟩ => rfl
/-- The one-row first bias at (0, h) is the bias at h. -/
theorem idx2 (z : Fin 1) (h : Fin 2048) : idx_main_v2 (ix2 z h) = ix1 h := by
  funext a; match a with | ⟨0, _⟩ => rfl
/-- The second layer's left operand is read at row b, column k. -/
theorem lidx6 (b : Fin 256) (e : Fin 512) (k : Fin 2048) : lidx_main_v6 (ix2 b e) k = ix2 b k := by
  funext a; match a with | ⟨0, _⟩ => rfl | ⟨1, _⟩ => rfl
/-- The second layer's right operand (the transposed weight) is read at row k, column e. -/
theorem ridx6 (b : Fin 256) (e : Fin 512) (k : Fin 2048) : ridx_main_v6 (ix2 b e) k = ix2 k e := by
  funext a; match a with | ⟨0, _⟩ => rfl | ⟨1, _⟩ => rfl
/-- The transposed second weight at (k, e) is the weight at (e, k). -/
theorem idx5 (k : Fin 2048) (e : Fin 512) : idx_main_v5 (ix2 k e) = ix2 e k := by
  funext a; match a with | ⟨0, _⟩ => rfl | ⟨1, _⟩ => rfl
/-- The second bias broadcast over rows is read at (0, e). -/
theorem idx8 (b : Fin 256) (e : Fin 512) : idx_main_v8 (ix2 b e) = ix2 (0 : Fin 1) e := by
  funext a; match a with | ⟨0, _⟩ => rfl | ⟨1, _⟩ => rfl
/-- The one-row second bias at (0, e) is the bias at e. -/
theorem idx7 (z : Fin 1) (e : Fin 512) : idx_main_v7 (ix2 z e) = ix1 e := by
  funext a; match a with | ⟨0, _⟩ => rfl
/-- The positive column at (b, 0) is read at b. -/
theorem idx26 (b : Fin 256) (z : Fin 1) : idx_main_v26 (ix2 b z) = ix1 b := by
  funext a; match a with | ⟨0, _⟩ => rfl
/-- The positive sum at b runs over the row (b, k). -/
theorem idx13 (b : Fin 256) (k : Fin 512) : idx_main_v13 (ix1 b) k = ix2 b k := by
  funext a; match a with | ⟨0, _⟩ => rfl | ⟨1, _⟩ => rfl
/-- The negative sum at (b, n) runs over (b, n, k). -/
theorem idx23 (b : Fin 256) (n : Fin 512) (k : Fin 512) : idx_main_v23 (ix2 b n) k = ix3 b n k := by
  funext a; match a with | ⟨0, _⟩ => rfl | ⟨1, _⟩ => rfl | ⟨2, _⟩ => rfl
/-- The negatives broadcast over the batch are read at (0, n, k). -/
theorem idx18 (b : Fin 256) (n : Fin 512) (k : Fin 512) : idx_main_v18 (ix3 b n k) = ix3 (0 : Fin 1) n k := by
  funext a; match a with | ⟨0, _⟩ => rfl | ⟨1, _⟩ => rfl | ⟨2, _⟩ => rfl
/-- The negatives with a leading unit axis at (0, n, k) are the negatives at (n, k). -/
theorem idx16 (z : Fin 1) (n : Fin 512) (k : Fin 512) : idx_main_v16 (ix3 z n k) = ix2 n k := by
  funext a; match a with | ⟨0, _⟩ => rfl | ⟨1, _⟩ => rfl
/-- The embedding broadcast over the negatives is read at (b, 0, k). -/
theorem idx19 (b : Fin 256) (n : Fin 512) (k : Fin 512) : idx_main_v19 (ix3 b n k) = ix3 b (0 : Fin 1) k := by
  funext a; match a with | ⟨0, _⟩ => rfl | ⟨1, _⟩ => rfl | ⟨2, _⟩ => rfl
/-- The embedding with a middle unit axis at (b, 0, k) is the embedding at (b, k). -/
theorem idx17 (b : Fin 256) (z : Fin 1) (k : Fin 512) : idx_main_v17 (ix3 b z k) = ix2 b k := by
  funext a; match a with | ⟨0, _⟩ => rfl | ⟨1, _⟩ => rfl

/-! ## The two affine layers -/

/-- The reference's hidden stage, entry (b, h). -/
theorem ref_hidden (x0 : S256x4096.Idx → EReal) (x3 : S2048x4096.Idx → EReal) (x4 : S2048.Idx → EReal)
    (b : Fin 256) (h : Fin 2048) :
    val_main_v4 (F := Ideal) x0 x3 x4 (ix2 b h) = Cert.Spec.hidden x0 x3 (fun h => x4 (ix1 h)) b h := by
  rw [val_main_v4_apply, val_main_v1_apply, val_main_v3_apply, val_main_v2_apply]
  simp only [val_main_v0_apply, lidx1, ridx1, idx0, idx3, idx2, Ideal.addf_def, Cert.Spec.hidden]

/-- The reference's embedding stage, entry (b, e). -/
theorem ref_emb (x0 : S256x4096.Idx → EReal) (x3 : S2048x4096.Idx → EReal) (x4 : S2048.Idx → EReal) (x5 : S512x2048.Idx → EReal) (x6 : S512.Idx → EReal)
    (b : Fin 256) (e : Fin 512) :
    val_main_v9 (F := Ideal) x0 x3 x4 x5 x6 (ix2 b e)
      = Cert.Spec.emb x0 x3 (fun h => x4 (ix1 h)) x5 (fun e' => x6 (ix1 e')) b e := by
  rw [val_main_v9_apply, val_main_v6_apply, val_main_v8_apply, val_main_v7_apply]
  simp only [val_main_v5_apply, lidx6, ridx6, idx5, idx8, idx7, ref_hidden, Ideal.addf_def, Cert.Spec.emb]

/-- The reference's positive scores laid out as a column, entry (b, 0). -/
theorem ref_pos (x0 : S256x4096.Idx → EReal) (x1 : S256x512.Idx → EReal) (x3 : S2048x4096.Idx → EReal) (x4 : S2048.Idx → EReal) (x5 : S512x2048.Idx → EReal) (x6 : S512.Idx → EReal)
    (b : Fin 256) :
    val_main_v26 (F := Ideal) x0 x1 x3 x4 x5 x6 (ix2 b 0)
      = Cert.Spec.score (fun e => x1 (ix2 b e)) (Cert.Spec.emb x0 x3 (fun h => x4 (ix1 h)) x5 (fun e' => x6 (ix1 e')) b) := by
  rw [val_main_v26_apply, idx26, val_main_v15_apply, val_main_v14_apply, val_main_v13_apply]
  simp only [val_main_v12_apply, val_main_v11_apply, val_main_v10_apply, val_main_call0_v0_apply,
    val_main_call0_cst_apply, val_main_cst_apply, idx13, ref_emb, Ideal.hostNegf_def, Ideal.negf_def,
    Ideal.hostUnary_sqrt_def, Ideal.mulf_def, Ideal.maximumf_def, Ideal.subf_def, Ideal.ofBits_def,
    Ideal.ofBits_zero_f32, zero_add, Cert.Spec.score, Cert.Spec.gap]

/-- The reference's negative scores, entry (b, n). -/
theorem ref_neg (x0 : S256x4096.Idx → EReal) (x2 : S512x512.Idx → EReal) (x3 : S2048x4096.Idx → EReal) (x4 : S2048.Idx → EReal) (x5 : S512x2048.Idx → EReal) (x6 : S512.Idx → EReal)
    (b : Fin 256) (n : Fin 512) :
    val_main_v25 (F := Ideal) x0 x2 x3 x4 x5 x6 (ix2 b n)
      = Cert.Spec.score (fun e => x2 (ix2 n e)) (Cert.Spec.emb x0 x3 (fun h => x4 (ix1 h)) x5 (fun e' => x6 (ix1 e')) b) := by
  rw [val_main_v25_apply, val_main_v24_apply, val_main_v23_apply]
  simp only [val_main_v22_apply, val_main_v21_apply, val_main_v20_apply, val_main_v19_apply, val_main_v18_apply,
    val_main_v17_apply, val_main_v16_apply, val_main_call1_v0_apply, val_main_call1_cst_apply,
    val_main_cst_0_apply, idx23, idx18, idx16, idx19, idx17, ref_emb, Ideal.hostNegf_def, Ideal.negf_def,
    Ideal.hostUnary_sqrt_def, Ideal.mulf_def, Ideal.maximumf_def, Ideal.subf_def, Ideal.ofBits_def,
    Ideal.ofBits_zero_f32, zero_add, Cert.Spec.score, Cert.Spec.gap]

end Cert.RefSpec

end
-- ==== Proof.Ideal.KernelValue.lean ====
/-
  The kernel program's result array over the extended reals is the reference's final stage of the same arguments.
  Both programs end with the same host operation: the positive scores (a 256 x 1 column) concatenated with the
  negative scores (256 x 512) along axis 1. So it is enough that the two operands agree entry by entry: region 0's
  positive-score array is the reference's positive-score column, and region 1's array its negative scores. Region 1
  is entered with region 0's embedding array, which is the specification's embedding of the arguments; the biases
  reach region 0 as one-row matrices, the reshapes of the bias vectors.
-/
import proofs.«118560_j28226525069938_1_alg».proof.Proof.Ideal.Main
import proofs.«118560_j28226525069938_1_alg».proof.Proof.Ideal.Value0
import proofs.«118560_j28226525069938_1_alg».proof.Proof.Ideal.Value1
import proofs.«118560_j28226525069938_1_alg».proof.Proof.RefSpec
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

open Idealize.ShloMosaic.StableHlo

variable (m : (ℓ : Loc nD τ sig) → Buf (Elt Ideal) ℓ)

/-! ## Region 0's entry contents, from the launch memory -/

theorem E1_main_arg0 (c : Dev nD) : E1 m c main_arg0 = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem E1_main_arg1 (c : Dev nD) : E1 m c main_arg1 = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem E1_main_arg3 (c : Dev nD) : E1 m c main_arg3 = m ((c : Thread nD τ).loc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem E1_main_arg5 (c : Dev nD) : E1 m c main_arg5 = m ((c : Thread nD τ).loc main_arg5) :=
  StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- The first bias as a one-row matrix. -/
theorem E1_v0 (c : Dev nD) (h : Fin 2048) :
    (E1 m c main_v0 : S1x2048.Idx → EReal) (ix2 0 h) = (m ((c : Thread nD τ).loc main_arg4) : S2048.Idx → EReal) (ix1 h) := by
  have e : (E1 m c main_v0 : S1x2048.Idx → EReal) = shapeCast S1x2048 (m ((c : Thread nD τ).loc main_arg4) : S2048.Idx → EReal) shapeCasts_S2048_S1x2048 := by
    show StableHlo.after hostOps0 (fun b => m (c, b)) (Proc.devRef .tc main_v0) = _
    after_results; rfl
  rw [e]; exact shapeCast_a_1a_apply _ _ 0 h
/-- The second bias as a one-row matrix. -/
theorem E1_v1 (c : Dev nD) (e' : Fin 512) :
    (E1 m c main_v1 : S1x512.Idx → EReal) (ix2 0 e') = (m ((c : Thread nD τ).loc main_arg6) : S512.Idx → EReal) (ix1 e') := by
  have e : (E1 m c main_v1 : S1x512.Idx → EReal) = shapeCast S1x512 (m ((c : Thread nD τ).loc main_arg6) : S512.Idx → EReal) shapeCasts_S512_S1x512 := by
    show StableHlo.after hostOps0 (fun b => m (c, b)) (Proc.devRef .tc main_v1) = _
    after_results; rfl
  rw [e]; exact shapeCast_a_1a_apply _ _ 0 e'

theorem E1_b1 (c : Dev nD) :
    (fun h : Fin 2048 => (E1 m c main_v0 : S1x2048.Idx → EReal) (ix2 0 h)) = fun h => (m ((c : Thread nD τ).loc main_arg4) : S2048.Idx → EReal) (ix1 h) :=
  funext (E1_v0 m c)
theorem E1_b2 (c : Dev nD) :
    (fun e' : Fin 512 => (E1 m c main_v1 : S1x512.Idx → EReal) (ix2 0 e')) = fun e' => (m ((c : Thread nD τ).loc main_arg6) : S512.Idx → EReal) (ix1 e') :=
  funext (E1_v1 m c)

/-! ## Region 1's entry contents -/

theorem E2_main_arg2 (c : Dev nD) : E2 m c main_arg2 = m ((c : Thread nD τ).loc main_arg2) :=
  (B2_of_ne m c main_arg2 (by decide)).trans (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
theorem E2_main_v2_0 (c : Dev nD) : E2 m c main_v2_0 = (dat0 (E1 m) c).arrAt 6 cfg0.N := B2_arr m c 6

/-! ## The two operands of the final concatenation -/

/-- Region 0's positive scores, as the second region leaves them, are the reference's positive-score column. -/
theorem pos_eq (c : Dev nD) :
    (B3 m c (Proc.devRef .tc main_v2_1) : S256x1.Idx → EReal)
      = Cert.ReferenceIdeal.Read.val_main_v26 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h1 : (B3 m c (Proc.devRef .tc main_v2_1) : S256x1.Idx → EReal) = (dat0 (F := Ideal) (E1 m) c).arrAt 7 cfg0.N :=
    (B3_of_ne m c main_v2_1 (by decide)).trans (B2_arr m c 7)
  funext i
  obtain ⟨b, u, rfl⟩ : ∃ (b : Fin 256) (u : Fin 1), i = ix2 b u := ⟨i 0, i 1, eq_ix2 i⟩
  obtain rfl : u = 0 := Subsingleton.elim _ _
  rw [h1, final0_7 (E1 m) c b, Cert.RefSpec.ref_pos]
  rw [E1_main_arg0 m c, E1_main_arg1 m c, E1_main_arg3 m c, E1_main_arg5 m c, E1_b1 m c, E1_b2 m c]

/-- Region 1's negative scores are the reference's. -/
theorem neg_eq (c : Dev nD) :
    (B3 m c (Proc.devRef .tc main_v3) : S256x512.Idx → EReal)
      = Cert.ReferenceIdeal.Read.val_main_v25 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  have h1 : (B3 m c (Proc.devRef .tc main_v3) : S256x512.Idx → EReal) = (dat1 (F := Ideal) (E2 m) c).arrAt 2 cfg1.N := B3_arr m c 2
  funext i
  obtain ⟨b, n, rfl⟩ : ∃ (b : Fin 256) (n : Fin 512), i = ix2 b n := ⟨i 0, i 1, eq_ix2 i⟩
  rw [h1, Cert.KernelIdeal.Val1.final1_2 (E2 m) c b n, Cert.RefSpec.ref_neg]
  rw [E2_main_arg2 m c, E2_main_v2_0 m c]
  have he : (fun e : Fin 512 => (dat0 (F := Ideal) (E1 m) c).arrAt 6 cfg0.N (ix2 b e)) = Cert.Spec.emb (E1 m c main_arg0) (E1 m c main_arg3) (fun h => (E1 m c main_v0 : S1x2048.Idx → EReal) (ix2 0 h)) (E1 m c main_arg5) (fun e' => (E1 m c main_v1 : S1x512.Idx → EReal) (ix2 0 e')) b :=
    funext fun e => final0_6 (E1 m) c b e
  rw [he, E1_main_arg0 m c, E1_main_arg3 m c, E1_main_arg5 m c, E1_b1 m c, E1_b2 m c]

/-! ## The result -/

/-- The kernel program's result array at the end is the reference's final stage of the launch arguments. -/
theorem result_eq (c : Dev nD) :
    (B4 m c (Proc.devRef .tc main_v4) : S256x513.Idx → EReal)
      = Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : (B4 m c (Proc.devRef .tc main_v4) : S256x513.Idx → EReal)
      = concatenate S256x513 1 [⟨S256x1, (B3 m c (Proc.devRef .tc main_v2_1) : S256x1.Idx → EReal)⟩, ⟨S256x512, (B3 m c (Proc.devRef .tc main_v3) : S256x512.Idx → EReal)⟩] concatenates_S256x1_S256x512_S256x513_d1 := by
    show StableHlo.after hostOps2 (B3 m c) (Proc.devRef .tc main_v4) = _
    after_results
    all_goals rfl
  rw [e, pos_eq, neg_eq]
  all_goals rfl

end Cert.KernelIdeal.Val

end
-- ==== Proof.lean ====
/-
  The proof of `Cert.Claim`: the kernel program (a two-layer embedding of 256 feature rows followed by order-violation
  scores against one positive and 512 negative labels per row, computed by two pipelined kernels) against its
  reference over the extended reals.
  Frames. The kernel program, at the word level and idealized, runs to the end without a fault and leaves its seven
  argument arrays as launched: @main is two host reshapes, the two kernel regions and one host concatenation; each
  region's frame is its body's triple at every grid point, with the accumulator it carries from point to point held
  in the region's invariant (Proof/Ideal, and the same text at the word-level program's names in Proof/Bits). The
  reference is straight-line host code: its frame is its run with the result dropped.
  Preserves. The ideal pass rewrote nothing: there is nothing to state.
  Algebraic. At the ideal instance a change of float format is the identity, so the kernel's block-by-block
  accumulation of the first product over the four blocks of its contraction axis is the whole product (a finite sum
  regrouped), and likewise the four lane blocks of the negative scores' sums; a product into a zero accumulator is
  the plain sum; zero minus x is the negation of x. Hence region 0's embedding and positive scores and region 1's
  negative scores are the specification's (Proof/Spec.lean), as are the reference's stages (Proof/RefSpec.lean);
  both programs end with the same concatenation of the two score arrays, so their results agree entry by entry.
  No use is made of the inputs' finiteness: only commutativity and associativity of addition are needed.
-/
import proofs.«118560_j28226525069938_1_alg».proof.Defs
import proofs.«118560_j28226525069938_1_alg».proof.Proof.Gen.Kernel
import proofs.«118560_j28226525069938_1_alg».proof.Proof.Gen.Kernel.Skeleton
import proofs.«118560_j28226525069938_1_alg».proof.Proof.Gen.Kernel.Launch
import proofs.«118560_j28226525069938_1_alg».proof.Proof.Gen.Kernel.Regions
import proofs.«118560_j28226525069938_1_alg».proof.Proof.Gen.Kernel.Points
import proofs.«118560_j28226525069938_1_alg».proof.Proof.Gen.KernelIdeal
import proofs.«118560_j28226525069938_1_alg».proof.Proof.Gen.KernelIdeal.Skeleton
import proofs.«118560_j28226525069938_1_alg».proof.Proof.Gen.KernelIdeal.Launch
import proofs.«118560_j28226525069938_1_alg».proof.Proof.Gen.KernelIdeal.Regions
import proofs.«118560_j28226525069938_1_alg».proof.Proof.Gen.KernelIdeal.Points
import proofs.«118560_j28226525069938_1_alg».proof.Proof.Gen.ReferenceIdeal
import proofs.«118560_j28226525069938_1_alg».proof.Proof.Gen.Pre_finite_inputs
import proofs.«118560_j28226525069938_1_alg».proof.Proof.Gen.ReferenceIdeal.Run
import proofs.«118560_j28226525069938_1_alg».proof.Proof.Gen.ReferenceIdeal.Read
import proofs.«118560_j28226525069938_1_alg».proof.Proof.Bits.Main
import proofs.«118560_j28226525069938_1_alg».proof.Proof.Ideal.Main
import proofs.«118560_j28226525069938_1_alg».proof.Proof.Ideal.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Fr.frame (F := Bits) m ρ

/-- So does the idealized kernel program. -/
theorem frame_kernel_ideal : Cert.frame_KernelIdeal := fun m ρ _ => Cert.KernelIdeal.Fr.frame (F := Ideal) m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs run, and their result arrays are equal entry by
    entry: the kernel program's is the reference's final stage of the same arguments. -/
theorem algebraic : Cert.algebraic_KernelIdeal_ReferenceIdeal := by
  intro m ρ m' ρ' _ hagree
  refine ⟨fun c => Cert.KernelIdeal.Fr.B4 m c (Proc.devRef .tc Cert.KernelIdeal.main_v4), Cert.KernelIdeal.Fr.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1,
    (hagree c).2.2.2.2.1, (hagree c).2.2.2.2.2.1, (hagree c).2.2.2.2.2.2]
  exact (Cert.KernelIdeal.Val.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
